-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16384 : Shape := ⟨2, ![1024, 16384]⟩
abbrev S1024x1024 : Shape := ⟨2, ![1024, 1024]⟩
abbrev S16x1024 : Shape := ⟨2, ![16, 1024]⟩
abbrev S_ : Shape := ⟨0, ![]⟩

class Facts : Prop where
  bcast_S_S1024x16384 : S_.BroadcastsInDim S1024x16384 (![] : Fin 0 → Fin S1024x16384.rank)
  reducesTo_S1024x16384_S_d0_1 : S1024x16384.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S16x1024 : S_.BroadcastsInDim S16x1024 (![] : Fin 0 → Fin S16x1024.rank)
  reducesTo_S16x1024_S_d0_1 : S16x1024.ReducesTo [0, 1] S_

variable [Facts]

def fn_part1 {F : FTy → Type} [FloatOps F] (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  main_v18

def fn {F : FTy → Type} [FloatOps F] (main_arg0 : FVec F S1024x16384 .f32) (main_arg1 : FVec F S1024x1024 .f32) (main_arg2 : FVec F S1024x1024 .f32) (main_arg3 : FVec F S16x1024 .f32) : IVec S_ 1 :=
  let main_v0 : FVec F S1024x16384 .f32 := Host.absf main_arg0
  let main_cst : FVec F S_ .f32 := constant S_ .f32 0x7F800000#32
  let main_v1 : FVec F S1024x16384 .f32 := broadcastInDim S1024x16384 ![] bcast_S_S1024x16384 main_cst
  let main_v2 : IVec S1024x16384 1 := cmpf .olt main_v0 main_v1
  let main_c : IVec S_ 1 := constantI S_ 1 1#1
  let main_v3 : IVec S_ 1 := (fun x v => Host.reduce IntOp.andi x v reducesTo_S1024x16384_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_v13 main_v16
-- ==== Kernel.lean ====
abbrev S1024x16384 : Shape := ⟨2, ![1024, 16384]⟩
abbrev S1024x1024 : Shape := ⟨2, ![1024, 1024]⟩
abbrev S16x1024 : Shape := ⟨2, ![16, 1024]⟩
abbrev S16x4 : Shape := ⟨2, ![16, 4]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S1024x4 : Shape := ⟨2, ![1024, 4]⟩
abbrev S1024x2048 : Shape := ⟨2, ![1024, 2048]⟩
abbrev S256x1024 : Shape := ⟨2, ![256, 1024]⟩
abbrev S256x4 : Shape := ⟨2, ![256, 4]⟩
abbrev S256x2048 : Shape := ⟨2, ![256, 2048]⟩
abbrev S256x1 : Shape := ⟨2, ![256, 1]⟩

abbrev nBuf : Space → Nat
  | .hbm => 51
  | .vmem => 10
  | .smem => 0
  | _ => 0

abbrev bufTy : (tb : Table) → Fin (tcTables nBuf tb) → BufTy
  | .hbm, ⟨0, _⟩ => ⟨S1024x16384, .f32⟩
  | .hbm, ⟨1, _⟩ => ⟨S1024x1024, .f32⟩
  | .hbm, ⟨2, _⟩ => ⟨S1024x1024, .f32⟩
  | .hbm, ⟨3, _⟩ => ⟨S16x1024, .f32⟩
  | .hbm, ⟨4, _⟩ => ⟨S16x4, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024x1, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1024x1024, .bf16⟩
  | .hbm, ⟨20, _⟩ => ⟨S_, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024x1, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024, .f32⟩
  | .hbm, ⟨31, _⟩ => ⟨S1024x1, .f32⟩
  | .hbm, ⟨32, _⟩ => ⟨S1024x1024, .f32⟩
  | .hbm, ⟨33, _⟩ => ⟨S1024x1024, .f32⟩
  | .hbm, ⟨34, _⟩ => ⟨S1024x1024, .bf16⟩
  | .hbm, ⟨35, _⟩ => ⟨S_, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1x1024, .f32⟩
  | .hbm, ⟨41, _⟩ => ⟨S16x1024, .f32⟩
  | .hbm, ⟨42, _⟩ => ⟨S16x1024, .f32⟩
  | .hbm, ⟨43, _⟩ => ⟨S16x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S16x1024, .f32⟩
  | .hbm, ⟨48, _⟩ => ⟨S16x1024, .f32⟩
  | .hbm, ⟨49, _⟩ => ⟨S1024x4, .f32⟩
  | .hbm, ⟨50, _⟩ => ⟨S1024x16384, .f32⟩
  | .local _ .vmem, ⟨0, _⟩ => ⟨S1024x2048, .f32⟩
  | .local _ .vmem, ⟨1, _⟩ => ⟨S1024x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x4, .f32⟩
  | .local _ .vmem, ⟨7, _⟩ => ⟨S256x4, .f32⟩
  | .local _ .vmem, ⟨8, _⟩ => ⟨S256x2048, .f32⟩
  | .local _ .vmem, ⟨9, _⟩ => ⟨S256x2048, .f32⟩
  | _, _ => ⟨S1024x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S1024x1024_S1024_d1 : S1024x1024.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bitsLt_bf16_f32 : FTy.bits .bf16 < FTy.bits .f32
  reducesTo_S16x1024_S1024_d0 : S16x1024.ReducesTo [0] S1024
  bcast_S1024_S1x1024_1 : S1024.BroadcastsInDim S1x1024 (![1] : Fin 1 → Fin S1x1024.rank)
  bcast_S1x1024_S16x1024_0_1 : S1x1024.BroadcastsInDim S16x1024 (![0, 1] : Fin 2 → Fin S16x1024.rank)
  inb_S1024x2048_S1024x2048_0_0 : ∀ a, (![0, 0] : Fin 2 → Nat) a + S1024x2048.size a ≤ S1024x2048.size a
  h_S1024x2048 : 0 < S1024x2048.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x4_S256x1_0_0 : ∀ a, (![0, 0] : Fin 2 → Nat) a + S256x1.size a ≤ S256x4.size a
  h_S256x1 : 0 < S256x1.numel
  shapeCasts_S256x1_S256x1 : S256x1.ShapeCasts S256x1
  inb_S256x4_S256x1_0_1 : ∀ a, (![0, 1] : Fin 2 → Nat) a + S256x1.size a ≤ S256x4.size a
  inb_S256x4_S256x1_0_2 : ∀ a, (![0, 2] : Fin 2 → Nat) a + S256x1.size a ≤ S256x4.size a
  inb_S256x4_S256x1_0_3 : ∀ a, (![0, 3] : Fin 2 → Nat) a + S256x1.size a ≤ S256x4.size a
  broadcasts_S256x1_S256x2048 : S256x1.Broadcasts S256x2048
  inb_S256x2048_S256x2048_0_0 : ∀ a, (![0, 0] : Fin 2 → Nat) a + S256x2048.size a ≤ S256x2048.size a
  h_S256x2048 : 0 < S256x2048.numel
  dot_S16x1024_S16x4_S1024x4_0_0_1_1_n_n_wf : DotDims.WF S16x1024 S16x4 S1024x4 [0] [0] [1] [1] [] []
  dot_S256x1024_S1024x2048_S256x2048_1_0_0_1_n_n_wf : DotDims.WF S256x1024 S1024x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x16384.size a
  hwx0_0 : ∀ i : grid0.Coords, EltTy.bits .f32 = 32 ∨ (Rect.block (s := S1024x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S1024x1024.size a
  hwx0_1 : ∀ i : grid0.Coords, EltTy.bits .bf16 = 32 ∨ (Rect.block (s := S1024x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S1024x1024.size a
  hwx0_2 : ∀ i : grid0.Coords, EltTy.bits .bf16 = 32 ∨ (Rect.block (s := S1024x1024) S256x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4.size a ≤ S1024x4.size a
  hwx0_3 : ∀ i : grid0.Coords, EltTy.bits .f32 = 32 ∨ (Rect.block (s := S1024x4) S256x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S1024x16384.size a
  hwx0_4 : ∀ i : grid0.Coords, EltTy.bits .f32 = 32 ∨ (Rect.block (s := S1024x16384) S256x2048.size (cc0_transform_4 i) (hinb0_4 i)).WholeWords (EltTy.packing .f32)

variable [Facts₀]

def dot_S16x1024_S16x4_S1024x4_0_0_1_1_n_n : DotDims S16x1024 S16x4 S1024x4 where
  lhsContracting := [0]
  rhsContracting := [0]
  lhsNonContracting := [1]
  rhsNonContracting := [1]
  lhsBatch := []
  rhsBatch := []
  wf := dot_S16x1024_S16x4_S1024x4_0_0_1_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S256x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v36) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x16384 : Shape := ⟨2, ![1024, 16384]⟩
abbrev S1024x1024 : Shape := ⟨2, ![1024, 1024]⟩
abbrev S16x1024 : Shape := ⟨2, ![16, 1024]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S1x1024x16384 : Shape := ⟨3, ![1, 1024, 16384]⟩
abbrev S16x1024x16384 : Shape := ⟨3, ![16, 1024, 16384]⟩
abbrev S16x1024x1 : Shape := ⟨3, ![16, 1024, 1]⟩

abbrev nBuf : Space → Nat
  | .hbm => 107
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S1024x1024, .f32⟩
  | .hbm, ⟨2, _⟩ => ⟨S1024x1024, .f32⟩
  | .hbm, ⟨3, _⟩ => ⟨S16x1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1024x1, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S1024x1, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024, .f32⟩
  | .hbm, ⟨29, _⟩ => ⟨S1024x1, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S16x1024, .f32⟩
  | .hbm, ⟨39, _⟩ => ⟨S16x1024, .f32⟩
  | .hbm, ⟨40, _⟩ => ⟨S16x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S16x1024, .f32⟩
  | .hbm, ⟨45, _⟩ => ⟨S16x1024, .f32⟩
  | .hbm, ⟨46, _⟩ => ⟨S1024x16384, .f32⟩
  | .hbm, ⟨47, _⟩ => ⟨S1024x16384, .f32⟩
  | .hbm, ⟨48, _⟩ => ⟨S1024x16384, .f32⟩
  | .hbm, ⟨49, _⟩ => ⟨S1024x16384, .f32⟩
  | .hbm, ⟨50, _⟩ => ⟨S1024x16384, .f32⟩
  | .hbm, ⟨51, _⟩ => ⟨S1024x16384, .f32⟩
  | .hbm, ⟨52, _⟩ => ⟨S_, .f32⟩
  | .hbm, ⟨53, _⟩ => ⟨S1024x16384, .f32⟩
  | .hbm, ⟨54, _⟩ => ⟨S1024x16384, .f32⟩
  | .hbm, ⟨55, _⟩ => ⟨S1024x16384, .f32⟩
  | .hbm, ⟨56, _⟩ => ⟨S_, .f32⟩
  | .hbm, ⟨57, _⟩ => ⟨S1024x16384, .f32⟩
  | .hbm, ⟨58, _⟩ => ⟨S1024x16384, .f32⟩
  | .hbm, ⟨59, _⟩ => ⟨S1024x16384, .f32⟩
  | .hbm, ⟨60, _⟩ => ⟨S_, .f32⟩
  | .hbm, ⟨61, _⟩ => ⟨S1024x16384, .f32⟩
  | .hbm, ⟨62, _⟩ => ⟨S1024x16384, .f32⟩
  | .hbm, ⟨63, _⟩ => ⟨S_, .f32⟩
  | .hbm, ⟨64, _⟩ => ⟨S1024x16384, .f32⟩
  | .hbm, ⟨65, _⟩ => ⟨S1024x16384, .f32⟩
  | .hbm, ⟨66, _⟩ => ⟨S_, .f32⟩
  | .hbm, ⟨67, _⟩ => ⟨S1024x16384, .f32⟩
  | .hbm, ⟨68, _⟩ => ⟨S1024x16384, .f32⟩
  | .hbm, ⟨69, _⟩ => ⟨S_, .f32⟩
  | .hbm, ⟨70, _⟩ => ⟨S1024x16384, .f32⟩
  | .hbm, ⟨71, _⟩ => ⟨S1024x16384, .f32⟩
  | .hbm, ⟨72, _⟩ => ⟨S1024x16384, .f32⟩
  | .hbm, ⟨73, _⟩ => ⟨S_, .f32⟩
  | .hbm, ⟨74, _⟩ => ⟨S1024x16384, .f32⟩
  | .hbm, ⟨75, _⟩ => ⟨S1024x16384, .f32⟩
  | .hbm, ⟨76, _⟩ => ⟨S_, .f32⟩
  | .hbm, ⟨77, _⟩ => ⟨S1024x16384, .f32⟩
  | .hbm, ⟨78, _⟩ => ⟨S1024x16384, .f32⟩
  | .hbm, ⟨79, _⟩ => ⟨S1024x16384, .f32⟩
  | .hbm, ⟨80, _⟩ => ⟨S_, .f32⟩
  | .hbm, ⟨81, _⟩ => ⟨S1024x16384, .f32⟩
  | .hbm, ⟨82, _⟩ => ⟨S1024x16384, .f32⟩
  | .hbm, ⟨83, _⟩ => ⟨S_, .f32⟩
  | .hbm, ⟨84, _⟩ => ⟨S1024x16384, .f32⟩
  | .hbm, ⟨85, _⟩ => ⟨S1x1024x16384, .f32⟩
  | .hbm, ⟨86, _⟩ => ⟨S1x1024x16384, .f32⟩
  | .hbm, ⟨87, _⟩ => ⟨S1x1024x16384, .f32⟩
  | .hbm, ⟨88, _⟩ => ⟨S1x1024x16384, .f32⟩
  | .hbm, ⟨89, _⟩ => ⟨S1x1024x16384, .f32⟩
  | .hbm, ⟨90, _⟩ => ⟨S1x1024x16384, .f32⟩
  | .hbm, ⟨91, _⟩ => ⟨S1x1024x16384, .f32⟩
  | .hbm, ⟨92, _⟩ => ⟨S1x1024x16384, .f32⟩
  | .hbm, ⟨93, _⟩ => ⟨S1x1024x16384, .f32⟩
  | .hbm, ⟨94, _⟩ => ⟨S1x1024x16384, .f32⟩
  | .hbm, ⟨95, _⟩ => ⟨S1x1024x16384, .f32⟩
  | .hbm, ⟨96, _⟩ => ⟨S1x1024x16384, .f32⟩
  | .hbm, ⟨97, _⟩ => ⟨S1x1024x16384, .f32⟩
  | .hbm, ⟨98, _⟩ => ⟨S1x1024x16384, .f32⟩
  | .hbm, ⟨99, _⟩ => ⟨S1x1024x16384, .f32⟩
  | .hbm, ⟨100, _⟩ => ⟨S1x1024x16384, .f32⟩
  | .hbm, ⟨101, _⟩ => ⟨S16x1024x16384, .f32⟩
  | .hbm, ⟨102, _⟩ => ⟨S16x1024x1, .f32⟩
  | .hbm, ⟨103, _⟩ => ⟨S16x1024x16384, .f32⟩
  | .hbm, ⟨104, _⟩ => ⟨S16x1024x16384, .f32⟩
  | .hbm, ⟨105, _⟩ => ⟨S_, .f32⟩
  | .hbm, ⟨106, _⟩ => ⟨S1024x16384, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_cst_13 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_cst_15 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_16 : Ref sig .tc := ⟨.hbm, 80, rfl⟩
abbrev main_v59 : Ref sig .tc := ⟨.hbm, 81, rfl⟩
abbrev main_v60 : Ref sig .tc := ⟨.hbm, 82, rfl⟩
abbrev main_cst_17 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_18 : Ref sig .tc := ⟨.hbm, 105, rfl⟩
abbrev main_v82 : Ref sig .tc := ⟨.hbm, 106, rfl⟩

abbrev nD : Nat := 1
abbrev τ : Topo := Topo.v7x

variable {F : FTy → Type} [FloatOps F]

class Facts₀ : Prop where
  reducesTo_S1024x1024_S1024_d1 : S1024x1024.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  reducesTo_S16x1024_S1024_d0 : S16x1024.ReducesTo [0] S1024
  bcast_S1024_S1x1024_1 : S1024.BroadcastsInDim S1x1024 (![1] : Fin 1 → Fin S1x1024.rank)
  bcast_S1x1024_S16x1024_0_1 : S1x1024.BroadcastsInDim S16x1024 (![0, 1] : Fin 2 → Fin S16x1024.rank)
  bcast_S_S1024x16384 : S_.BroadcastsInDim S1024x16384 (![] : Fin 0 → Fin S1024x16384.rank)
  bcast_S1024x16384_S1x1024x16384_1_2 : S1024x16384.BroadcastsInDim S1x1024x16384 (![1, 2] : Fin 2 → Fin S1x1024x16384.rank)
  concatenates_S1x1024x16384_S1x1024x16384_S1x1024x16384_S1x1024x16384_S1x1024x16384_S1x1024x16384_S1x1024x16384_S1x1024x16384_S1x1024x16384_S1x1024x16384_S1x1024x16384_S1x1024x16384_S1x1024x16384_S1x1024x16384_S1x1024x16384_S1x1024x16384_S16x1024x16384_d0 : Shape.Concatenates [S1x1024x16384, S1x1024x16384, S1x1024x16384, S1x1024x16384, S1x1024x16384, S1x1024x16384, S1x1024x16384, S1x1024x16384, S1x1024x16384, S1x1024x16384, S1x1024x16384, S1x1024x16384, S1x1024x16384, S1x1024x16384, S1x1024x16384, S1x1024x16384] S16x1024x16384 0
  bcast_S16x1024_S16x1024x1_0_1 : S16x1024.BroadcastsInDim S16x1024x1 (![0, 1] : Fin 2 → Fin S16x1024x1.rank)
  bcast_S16x1024x1_S16x1024x16384_0_1_2 : S16x1024x1.BroadcastsInDim S16x1024x16384 (![0, 1, 2] : Fin 3 → Fin S16x1024x16384.rank)
  reducesTo_S16x1024x16384_S1024x16384_d0 : S16x1024x16384.ReducesTo [0] S1024x16384
  dot_S1024x1024_S1024x16384_S1024x16384_1_0_0_1_n_n_wf : DotDims.WF S1024x1024 S1024x16384 S1024x16384 [1] [0] [0] [1] [] []

variable [Facts₀]

def dot_S1024x1024_S1024x16384_S1024x16384_1_0_0_1_n_n : DotDims S1024x1024 S1024x16384 S1024x16384 where
  lhsContracting := [1]
  rhsContracting := [0]
  lhsNonContracting := [0]
  rhsNonContracting := [1]
  lhsBatch := []
  rhsBatch := []
  wf := dot_S1024x1024_S1024x16384_S1024x16384_1_0_0_1_n_n_wf

class Facts : Prop extends Facts₀ where

variable [Facts]
-- ==== Proof.LibNary16.lean ====
/-
  A host operation over SIXTEEN literal references, read with each operand at its own reference.

  A StableHLO operation with a family of operands (a concatenate of n pieces) is the builder nary over a vector of
  references; its result is its function applied to fun k => (the contents of reference k).  Under that binder the
  reference "entry k of a literal vector" is no literal, so a read-back of a straight-line program cannot go on into
  the operands' own contents.  For a literal vector of sixteen references the family is, entry by entry, the
  contents of the sixteen references themselves: fam16 names that family by cases on the index, so that its value
  at each literal index k is the contents of the k-th reference (fam16_0 … fam16_15, each by computation), and the
  operation's result is its function at fam16 (nary16_result: the two families agree at each of the sixteen indices).
  (The library states the like for four references.)

  A concatenate's side condition speaks of the LIST of its pieces' shapes, so as a term it depends on the pieces;
  concat16 is the concatenation of sixteen pieces of ONE shape as a plain function of the sixteen pieces, its side
  condition over the sixteen-fold list of that one shape (concatenate16_eq: the same array, by definition).  In that form
  each piece is an ordinary argument, and a piece's contents can be rewritten without touching the side condition.
-/
import Idealize.ShloMosaic.Lib.StableHlo.Run

noncomputable section

namespace Cert.LibNary

open Idealize.ShloMosaic Idealize.ShloMosaic.StableHlo Idealize.SL.Sem

variable {τ : Topo} {sig : RefSig} {Val : EltTy → Type}

/-- The contents, under a valuation, of sixteen references, as a family over their indices. -/
def fam16 (x0 x1 x2 x3 x4 x5 x6 x7 x8 x9 x10 x11 x12 x13 x14 x15 : Ref sig .tc) (F : Valuation τ sig Val) :
    (k : Fin 16) → ((![x0, x1, x2, x3, x4, x5, x6, x7, x8, x9, x10, x11, x12, x13, x14, x15] : Fin 16 → Ref sig .tc) k).ty.Contents Val
  | ⟨0, _⟩ => F (Proc.devRef .tc x0)
  | ⟨1, _⟩ => F (Proc.devRef .tc x1)
  | ⟨2, _⟩ => F (Proc.devRef .tc x2)
  | ⟨3, _⟩ => F (Proc.devRef .tc x3)
  | ⟨4, _⟩ => F (Proc.devRef .tc x4)
  | ⟨5, _⟩ => F (Proc.devRef .tc x5)
  | ⟨6, _⟩ => F (Proc.devRef .tc x6)
  | ⟨7, _⟩ => F (Proc.devRef .tc x7)
  | ⟨8, _⟩ => F (Proc.devRef .tc x8)
  | ⟨9, _⟩ => F (Proc.devRef .tc x9)
  | ⟨10, _⟩ => F (Proc.devRef .tc x10)
  | ⟨11, _⟩ => F (Proc.devRef .tc x11)
  | ⟨12, _⟩ => F (Proc.devRef .tc x12)
  | ⟨13, _⟩ => F (Proc.devRef .tc x13)
  | ⟨14, _⟩ => F (Proc.devRef .tc x14)
  | ⟨15, _⟩ => F (Proc.devRef .tc x15)
  | ⟨_ + 16, h⟩ => absurd h (Nat.not_lt.2 (Nat.le_add_left _ _))

variable (x0 x1 x2 x3 x4 x5 x6 x7 x8 x9 x10 x11 x12 x13 x14 x15 : Ref sig .tc)

theorem fam16_0 (F : Valuation τ sig Val) : fam16 x0 x1 x2 x3 x4 x5 x6 x7 x8 x9 x10 x11 x12 x13 x14 x15 F 0 = F (Proc.devRef .tc x0) := rfl
theorem fam16_1 (F : Valuation τ sig Val) : fam16 x0 x1 x2 x3 x4 x5 x6 x7 x8 x9 x10 x11 x12 x13 x14 x15 F 1 = F (Proc.devRef .tc x1) := rfl
theorem fam16_2 (F : Valuation τ sig Val) : fam16 x0 x1 x2 x3 x4 x5 x6 x7 x8 x9 x10 x11 x12 x13 x14 x15 F 2 = F (Proc.devRef .tc x2) := rfl
theorem fam16_3 (F : Valuation τ sig Val) : fam16 x0 x1 x2 x3 x4 x5 x6 x7 x8 x9 x10 x11 x12 x13 x14 x15 F 3 = F (Proc.devRef .tc x3) := rfl
theorem fam16_4 (F : Valuation τ sig Val) : fam16 x0 x1 x2 x3 x4 x5 x6 x7 x8 x9 x10 x11 x12 x13 x14 x15 F 4 = F (Proc.devRef .tc x4) := rfl
theorem fam16_5 (F : Valuation τ sig Val) : fam16 x0 x1 x2 x3 x4 x5 x6 x7 x8 x9 x10 x11 x12 x13 x14 x15 F 5 = F (Proc.devRef .tc x5) := rfl
theorem fam16_6 (F : Valuation τ sig Val) : fam16 x0 x1 x2 x3 x4 x5 x6 x7 x8 x9 x10 x11 x12 x13 x14 x15 F 6 = F (Proc.devRef .tc x6) := rfl
theorem fam16_7 (F : Valuation τ sig Val) : fam16 x0 x1 x2 x3 x4 x5 x6 x7 x8 x9 x10 x11 x12 x13 x14 x15 F 7 = F (Proc.devRef .tc x7) := rfl
theorem fam16_8 (F : Valuation τ sig Val) : fam16 x0 x1 x2 x3 x4 x5 x6 x7 x8 x9 x10 x11 x12 x13 x14 x15 F 8 = F (Proc.devRef .tc x8) := rfl
theorem fam16_9 (F : Valuation τ sig Val) : fam16 x0 x1 x2 x3 x4 x5 x6 x7 x8 x9 x10 x11 x12 x13 x14 x15 F 9 = F (Proc.devRef .tc x9) := rfl
theorem fam16_10 (F : Valuation τ sig Val) : fam16 x0 x1 x2 x3 x4 x5 x6 x7 x8 x9 x10 x11 x12 x13 x14 x15 F 10 = F (Proc.devRef .tc x10) := rfl
theorem fam16_11 (F : Valuation τ sig Val) : fam16 x0 x1 x2 x3 x4 x5 x6 x7 x8 x9 x10 x11 x12 x13 x14 x15 F 11 = F (Proc.devRef .tc x11) := rfl
theorem fam16_12 (F : Valuation τ sig Val) : fam16 x0 x1 x2 x3 x4 x5 x6 x7 x8 x9 x10 x11 x12 x13 x14 x15 F 12 = F (Proc.devRef .tc x12) := rfl
theorem fam16_13 (F : Valuation τ sig Val) : fam16 x0 x1 x2 x3 x4 x5 x6 x7 x8 x9 x10 x11 x12 x13 x14 x15 F 13 = F (Proc.devRef .tc x13) := rfl
theorem fam16_14 (F : Valuation τ sig Val) : fam16 x0 x1 x2 x3 x4 x5 x6 x7 x8 x9 x10 x11 x12 x13 x14 x15 F 14 = F (Proc.devRef .tc x14) := rfl
theorem fam16_15 (F : Valuation τ sig Val) : fam16 x0 x1 x2 x3 x4 x5 x6 x7 x8 x9 x10 x11 x12 x13 x14 x15 F 15 = F (Proc.devRef .tc x15) := rfl

variable {x0 x1 x2 x3 x4 x5 x6 x7 x8 x9 x10 x11 x12 x13 x14 x15} {y : Ref sig .tc}

/-- The result of an operation over sixteen literal references is its function at the sixteen references' contents. -/
theorem nary16_result
    (f : ((k : Fin 16) → ((![x0, x1, x2, x3, x4, x5, x6, x7, x8, x9, x10, x11, x12, x13, x14, x15] : Fin 16 → Ref sig .tc) k).ty.Contents Val) → y.ty.Contents Val) (hxs hy)
    (F : Valuation τ sig Val) :
    (nary (τ := τ) ![x0, x1, x2, x3, x4, x5, x6, x7, x8, x9, x10, x11, x12, x13, x14, x15] y f hxs hy).result F (Proc.devRef .tc y) = f (fam16 x0 x1 x2 x3 x4 x5 x6 x7 x8 x9 x10 x11 x12 x13 x14 x15 F) := by
  rw [nary_result]; congr 1; funext k; fin_cases k <;> rfl

/-- The same equation with the result reference marked as not to be indexed on: the form in which it serves as a
    rewrite rule when a straight-line program's final contents are computed in one pass. -/
theorem nary16_result'
    (f : ((k : Fin 16) → ((![x0, x1, x2, x3, x4, x5, x6, x7, x8, x9, x10, x11, x12, x13, x14, x15] : Fin 16 → Ref sig .tc) k).ty.Contents Val) → y.ty.Contents Val) (hxs hy)
    (F : Valuation τ sig Val) :
    (nary (τ := τ) ![x0, x1, x2, x3, x4, x5, x6, x7, x8, x9, x10, x11, x12, x13, x14, x15] y f hxs hy).result F (no_index (Proc.devRef .tc y)) = f (fam16 x0 x1 x2 x3 x4 x5 x6 x7 x8 x9 x10 x11 x12 x13 x14 x15 F) :=
  nary16_result f hxs hy F

/-! ## Sixteen pieces of one shape, joined -/

variable {α : Type}

/-- The concatenation along axis a of sixteen pieces of one shape s, as a function of the sixteen pieces. -/
def concat16 (t : Shape) (a : Fin t.rank) (s : Shape) (p0 p1 p2 p3 p4 p5 p6 p7 p8 p9 p10 p11 p12 p13 p14 p15 : s.Idx → α)
    (h : Shape.Concatenates [s, s, s, s, s, s, s, s, s, s, s, s, s, s, s, s] t a) : t.Idx → α :=
  concatenate t a [⟨s, p0⟩, ⟨s, p1⟩, ⟨s, p2⟩, ⟨s, p3⟩, ⟨s, p4⟩, ⟨s, p5⟩, ⟨s, p6⟩, ⟨s, p7⟩, ⟨s, p8⟩, ⟨s, p9⟩, ⟨s, p10⟩, ⟨s, p11⟩, ⟨s, p12⟩, ⟨s, p13⟩, ⟨s, p14⟩, ⟨s, p15⟩] h

/-- A concatenate of sixteen pieces of one shape is concat16 of the pieces. -/
theorem concatenate16_eq (t : Shape) (a : Fin t.rank) (s : Shape) (p0 p1 p2 p3 p4 p5 p6 p7 p8 p9 p10 p11 p12 p13 p14 p15 : s.Idx → α)
    (h : Shape.Concatenates [s, s, s, s, s, s, s, s, s, s, s, s, s, s, s, s] t a) :
    concatenate t a [⟨s, p0⟩, ⟨s, p1⟩, ⟨s, p2⟩, ⟨s, p3⟩, ⟨s, p4⟩, ⟨s, p5⟩, ⟨s, p6⟩, ⟨s, p7⟩, ⟨s, p8⟩, ⟨s, p9⟩, ⟨s, p10⟩, ⟨s, p11⟩, ⟨s, p12⟩, ⟨s, p13⟩, ⟨s, p14⟩, ⟨s, p15⟩] h = concat16 t a s p0 p1 p2 p3 p4 p5 p6 p7 p8 p9 p10 p11 p12 p13 p14 p15 h := rfl

end Cert.LibNary

end
-- ==== Proof.Spec.lean ====
/-
  The mathematics of the soft logic-gate layer, stated once and free of either program.

  Inputs: X : [1024, 16384] (the previous layer's output), wA, wB : [1024, 1024] and wT : [16, 1024] (unnormalised
  weights).  With pA = softmax of wA along its rows, pB likewise, and pT = softmax of wT along its columns,
  A = pA · X and B = pB · X are two matrix products, and the layer's output at (r, n) mixes sixteen soft gates of
  a = A r n and b = B r n with the weights pT · r:   out r n = ∑ i, gate i a b * pT i r.
  Every gate is affine in 1, a, b, a·b, so the mix is also  c0 + c1·a + c2·b + c3·(a·b)  with  c_j = ∑ i, pT i r * coef i j.
  This file names both spellings (refMix, kerMix) over the extended reals; that they agree on real arguments is
  proved in GateLaw.lean.  The softmaxes are kept as the whole-array terms both programs compute; all that is ever
  needed of them is that their entries are real when the weights are (SoftmaxRow.lean, SoftmaxCol.lean).
-/
import Idealize.ShloMosaic.PureOps
import Idealize.ShloMosaic.PureOps.Ideal
import Idealize.ShloMosaic.Lib.ValueIdx

noncomputable section

open scoped BigOperators

namespace Cert.GateMix

open Idealize.ShloMosaic Idealize.ShloMosaic.ValueIdx

/-! ## Shapes -/

abbrev SX : Shape := ⟨2, ![1024, 16384]⟩
abbrev SW : Shape := ⟨2, ![1024, 1024]⟩
abbrev ST : Shape := ⟨2, ![16, 1024]⟩
abbrev S0 : Shape := ⟨0, ![]⟩
abbrev SV : Shape := ⟨1, ![1024]⟩
abbrev SCol : Shape := ⟨2, ![1024, 1]⟩
abbrev SRow : Shape := ⟨2, ![1, 1024]⟩

theorem h_S0 : 0 < S0.numel := by decide
theorem red_SW : SW.ReducesTo [1] SV := by decide
theorem red_ST : ST.ReducesTo [0] SV := by decide
theorem bc_S0_SV : S0.BroadcastsInDim SV (![] : Fin 0 → Fin SV.rank) := by decide
theorem bc_SV_SCol : SV.BroadcastsInDim SCol (![0] : Fin 1 → Fin SCol.rank) := by decide
theorem bc_SCol_SW : SCol.BroadcastsInDim SW (![0, 1] : Fin 2 → Fin SW.rank) := by decide
theorem bc_SV_SRow : SV.BroadcastsInDim SRow (![1] : Fin 1 → Fin SRow.rank) := by decide
theorem bc_SRow_ST : SRow.BroadcastsInDim ST (![0, 1] : Fin 2 → Fin ST.rank) := by decide

/-! ## The softmaxes, as whole-array terms (max-shifted: exp (w - max) / ∑ exp (w - max)) -/

/-- The largest entry of each row of w (joined with -∞, the reduction's initial value). -/
def rowMax (w : FVec Ideal SW .f32) : FVec Ideal SV .f32 :=
  maximumf (broadcastInDim SV ![] bc_S0_SV (constant S0 .f32 0xFF800000#32))
    (Host.reduce FloatOps.maximumf w (constant S0 .f32 0xFF800000#32) red_SW h_S0)
/-- exp (w r k - rowMax w r). -/
def rowExp (w : FVec Ideal SW .f32) : FVec Ideal SW .f32 :=
  Host.exp (subf w (broadcastInDim SW ![0, 1] bc_SCol_SW (broadcastInDim SCol ![0] bc_SV_SCol (rowMax w))))
/-- The sum of each row of rowExp w. -/
def rowSum (w : FVec Ideal SW .f32) : FVec Ideal SV .f32 :=
  Host.reduceAdd (rowExp w) (constant S0 .f32 0x00000000#32) red_SW h_S0
/-- Softmax along the rows (axis 1) of a [1024, 1024] array. -/
def rowSoftmax (w : FVec Ideal SW .f32) : FVec Ideal SW .f32 :=
  Host.divf (rowExp w) (broadcastInDim SW ![0, 1] bc_SCol_SW (broadcastInDim SCol ![0] bc_SV_SCol (rowSum w)))

/-- The largest entry of each column of w (joined with -∞). -/
def colMax (w : FVec Ideal ST .f32) : FVec Ideal SV .f32 :=
  maximumf (broadcastInDim SV ![] bc_S0_SV (constant S0 .f32 0xFF800000#32))
    (Host.reduce FloatOps.maximumf w (constant S0 .f32 0xFF800000#32) red_ST h_S0)
/-- exp (w i r - colMax w r). -/
def colExp (w : FVec Ideal ST .f32) : FVec Ideal ST .f32 :=
  Host.exp (subf w (broadcastInDim ST ![0, 1] bc_SRow_ST (broadcastInDim SRow ![1] bc_SV_SRow (colMax w))))
/-- The sum of each column of colExp w. -/
def colSum (w : FVec Ideal ST .f32) : FVec Ideal SV .f32 :=
  Host.reduceAdd (colExp w) (constant S0 .f32 0x00000000#32) red_ST h_S0
/-- Softmax along the columns (axis 0) of a [16, 1024] array. -/
def colSoftmax (w : FVec Ideal ST .f32) : FVec Ideal ST .f32 :=
  Host.divf (colExp w) (broadcastInDim ST ![0, 1] bc_SRow_ST (broadcastInDim SRow ![1] bc_SV_SRow (colSum w)))

/-! ## The matrix product at an entry -/

/-- (P · X) r n = ∑ k, P r k * X k n. -/
def mm (P : FVec Ideal SW .f32) (X : FVec Ideal SX .f32) (r : Fin 1024) (n : Fin 16384) : EReal :=
  ∑ k : Fin 1024, P (ix2 r k) * X (ix2 k n)

/-! ## The sixteen gates and their two mixes -/

/-- The float words the programs spell: 0, 1, 2 and, in the coefficient table, -1 and -2. -/
abbrev w0 : BitVec 32 := 0x00000000#32
abbrev w1 : BitVec 32 := 0x3F800000#32
abbrev w2 : BitVec 32 := 0x40000000#32
abbrev wm1 : BitVec 32 := 0xBF800000#32
abbrev wm2 : BitVec 32 := 0xC0000000#32

/-- Gate i of a and b, spelled as the reference computes it (FALSE, AND, A∧¬B, A, ¬A∧B, B, XOR, OR, NOR, XNOR, ¬B, B→A,
    ¬A, A→B, NAND, TRUE). -/
def gate (a b : EReal) : Fin 16 → EReal
  | 0 => Ideal.ofBits .f32 w0
  | 1 => a * b
  | 2 => a - a * b
  | 3 => a
  | 4 => b - a * b
  | 5 => b
  | 6 => (a + b) - Ideal.ofBits .f32 w2 * (a * b)
  | 7 => (a + b) - a * b
  | 8 => Ideal.ofBits .f32 w1 - ((a + b) - a * b)
  | 9 => Ideal.ofBits .f32 w1 - ((a + b) - Ideal.ofBits .f32 w2 * (a * b))
  | 10 => Ideal.ofBits .f32 w1 - b
  | 11 => (Ideal.ofBits .f32 w1 - b) + a * b
  | 12 => Ideal.ofBits .f32 w1 - a
  | 13 => (Ideal.ofBits .f32 w1 - a) + a * b
  | 14 => Ideal.ofBits .f32 w1 - a * b
  | 15 => Ideal.ofBits .f32 w1
  | ⟨_ + 16, h⟩ => absurd h (Nat.not_lt.2 (Nat.le_add_left _ _))

/-- The reference's mix at row r: the gates weighted by column r of pT, summed from zero. -/
def refMix (pT : FVec Ideal ST .f32) (r : Fin 1024) (a b : EReal) : EReal :=
  Ideal.ofBits .f32 w0 + ∑ i : Fin 16, gate a b i * pT (ix2 i r)

/-- Gate i as an affine combination of 1, a, b, a·b: its four coefficients, as float words. -/
def coefBits : Fin 16 → Fin 4 → BitVec 32
  | 0 => ![w0, w0, w0, w0]
  | 1 => ![w0, w0, w0, w1]
  | 2 => ![w0, w1, w0, wm1]
  | 3 => ![w0, w1, w0, w0]
  | 4 => ![w0, w0, w1, wm1]
  | 5 => ![w0, w0, w1, w0]
  | 6 => ![w0, w1, w1, wm2]
  | 7 => ![w0, w1, w1, wm1]
  | 8 => ![w1, wm1, wm1, w1]
  | 9 => ![w1, wm1, wm1, w2]
  | 10 => ![w1, w0, wm1, w0]
  | 11 => ![w1, w0, wm1, w1]
  | 12 => ![w1, wm1, w0, w0]
  | 13 => ![w1, wm1, w0, w1]
  | 14 => ![w1, w0, w0, wm1]
  | 15 => ![w1, w0, w0, w0]
  | ⟨_ + 16, h⟩ => absurd h (Nat.not_lt.2 (Nat.le_add_left _ _))

/-- Coefficient j of row r: ∑ i, pT i r * coef i j (a product of pT's transpose with the coefficient table). -/
def coef (pT : FVec Ideal ST .f32) (r : Fin 1024) (j : Fin 4) : EReal :=
  ∑ i : Fin 16, pT (ix2 i r) * Ideal.ofBits .f32 (coefBits i j)

/-- The kernel's mix at row r: ((c0 + c1·a) + c2·b) + c3·(a·b). -/
def kerMix (pT : FVec Ideal ST .f32) (r : Fin 1024) (a b : EReal) : EReal :=
  ((coef pT r 0 + coef pT r 1 * a) + coef pT r 2 * b) + coef pT r 3 * (a * b)

/-! ## The layer's output, in the reference's spelling and in the kernel's -/

/-- The output as the reference spells it. -/
def G (X : FVec Ideal SX .f32) (wA wB : FVec Ideal SW .f32) (wT : FVec Ideal ST .f32) : FVec Ideal SX .f32 :=
  fun j => refMix (colSoftmax wT) (j 0) (mm (rowSoftmax wA) X (j 0) (j 1)) (mm (rowSoftmax wB) X (j 0) (j 1))

/-- The output as the kernel spells it. -/
def Gk (X : FVec Ideal SX .f32) (wA wB : FVec Ideal SW .f32) (wT : FVec Ideal ST .f32) : FVec Ideal SX .f32 :=
  fun j => kerMix (colSoftmax wT) (j 0) (mm (rowSoftmax wA) X (j 0) (j 1)) (mm (rowSoftmax wB) X (j 0) (j 1))

theorem G_apply (X : FVec Ideal SX .f32) (wA wB : FVec Ideal SW .f32) (wT : FVec Ideal ST .f32) (r : Fin 1024) (n : Fin 16384) :
    G X wA wB wT (ix2 r n) = refMix (colSoftmax wT) r (mm (rowSoftmax wA) X r n) (mm (rowSoftmax wB) X r n) := rfl

theorem Gk_apply (X : FVec Ideal SX .f32) (wA wB : FVec Ideal SW .f32) (wT : FVec Ideal ST .f32) (r : Fin 1024) (n : Fin 16384) :
    Gk X wA wB wT (ix2 r n) = kerMix (colSoftmax wT) r (mm (rowSoftmax wA) X r n) (mm (rowSoftmax wB) X r n) := rfl

/-- "Every entry is a real number". -/
def AllReal {s : Shape} (x : s.Idx → EReal) : Prop := ∀ i, ∃ v : ℝ, x i = (v : EReal)

end Cert.GateMix

end
-- ==== Proof.KernelHost.lean ====
/-
  What the kernel's region finds in the three arrays its host prologue computes.

  Before the pallas_call the program computes, on the host, pA = softmax of wA along rows and pB likewise (then
  rounds them to bf16, which is the identity over the extended reals), and C = (softmax of wT along columns)ᵀ · T,
  where T is the 16 × 4 table of the gates' affine coefficients.  So window 1's array is rowSoftmax wA, window 2's is
  rowSoftmax wB, and window 3's array at (r, j) is coef (colSoftmax wT) r j = ∑ i, pT i r * T i j: a dot_general
  contracting axis 0 of both operands, read as a sum over its one contracted coordinate.
-/
import proofs.«167358_j41910290874770_1_alg».proof.Proof.Gen.KernelIdeal.Frame
import proofs.«167358_j41910290874770_1_alg».proof.Proof.Spec
import Idealize.ShloMosaic.Lib.StableHlo.Run
import Idealize.ShloMosaic.Lib.ValueIdx
import Idealize.ShloMosaic.PureOps.Ideal.Laws

noncomputable section

open scoped BigOperators

namespace Cert.KernelIdeal.HostSide

open Cert.KernelIdeal Cert.KernelIdeal.Gen Cert.GateMix
open Idealize.ShloMosaic Idealize.ShloMosaic.TcCoe Idealize.SL.Sem Idealize.ShloMosaic.StableHlo Idealize.ShloMosaic.ValueIdx

variable (m : (ℓ : Loc nD τ sig) → Buf (Elt Ideal) ℓ)

/-! ## The coefficient table: the program's 64 literal words are the table of Spec.lean -/

/-- Entry (i, j) of the program's dense constant, read through the row-major order it is listed in, is coefficient j
    of gate i. -/
theorem lit_eq : ∀ (i : Fin 16) (j : Fin 4), lit0 (S16x4.rowMajor (ix2 i j)) = coefBits i j := by decide

/-! ## The contraction pT ᵀ · T at an entry -/

theorem lhs_coef_0 (j : S1024x4.Idx) (q : dot_S16x1024_S16x4_S1024x4_0_0_1_1_n_n.contr.Idx) :
    (dot_S16x1024_S16x4_S1024x4_0_0_1_1_n_n.lhsIdx j q 0).val = (q ⟨0, by decide⟩).val :=
  dot_S16x1024_S16x4_S1024x4_0_0_1_1_n_n.lhsIdx_val_of_single rfl j q
theorem lhs_coef_1 (j : S1024x4.Idx) (q : dot_S16x1024_S16x4_S1024x4_0_0_1_1_n_n.contr.Idx) :
    (dot_S16x1024_S16x4_S1024x4_0_0_1_1_n_n.lhsIdx j q 1).val = (j 0).val := by
  unfold DotDims.lhsIdx
  rw [dif_neg (show ¬(1 : Fin S16x1024.rank) ∈ dot_S16x1024_S16x4_S1024x4_0_0_1_1_n_n.lhsBatch by decide), dif_pos (show (1 : Fin S16x1024.rank) ∈ dot_S16x1024_S16x4_S1024x4_0_0_1_1_n_n.lhsNonContracting by decide)]
  rfl
theorem rhs_coef_0 (j : S1024x4.Idx) (q : dot_S16x1024_S16x4_S1024x4_0_0_1_1_n_n.contr.Idx) :
    (dot_S16x1024_S16x4_S1024x4_0_0_1_1_n_n.rhsIdx j q 0).val = (q ⟨0, by decide⟩).val :=
  dot_S16x1024_S16x4_S1024x4_0_0_1_1_n_n.rhsIdx_val_of_single rfl j q
theorem rhs_coef_1 (j : S1024x4.Idx) (q : dot_S16x1024_S16x4_S1024x4_0_0_1_1_n_n.contr.Idx) :
    (dot_S16x1024_S16x4_S1024x4_0_0_1_1_n_n.rhsIdx j q 1).val = (j 1).val := by
  unfold DotDims.rhsIdx
  rw [dif_neg (show ¬(1 : Fin S16x4.rank) ∈ dot_S16x1024_S16x4_S1024x4_0_0_1_1_n_n.rhsBatch by decide), dif_pos (show (1 : Fin S16x4.rank) ∈ dot_S16x1024_S16x4_S1024x4_0_0_1_1_n_n.rhsNonContracting by decide)]
  rfl

/-- The product of pTᵀ with the coefficient table, at (r, j), is ∑ i, pT i r * T i j. -/
theorem coefTable_apply (pT : FVec Ideal S16x1024 .f32) (r : Fin 1024) (j : Fin 4) :
    Host.dotGeneral dot_S16x1024_S16x4_S1024x4_0_0_1_1_n_n none pT
        (fun i => FloatOps.ofBits (F := Ideal) .f32 (lit0 (S16x4.rowMajor i))) (ix2 r j)
      = coef pT r j := by
  simp only [Host.dotGeneral]
  rw [Ideal.dotGeneral_apply, ← Equiv.sum_comp (ValueIdx.contrEquiv1 dot_S16x1024_S16x4_S1024x4_0_0_1_1_n_n 16 rfl rfl).symm]
  unfold coef
  refine Finset.sum_congr rfl fun k _ => ?_
  have hk := ValueIdx.contrEquiv1_symm_val dot_S16x1024_S16x4_S1024x4_0_0_1_1_n_n 16 rfl rfl k
  have el : dot_S16x1024_S16x4_S1024x4_0_0_1_1_n_n.lhsIdx (ix2 r j) ((ValueIdx.contrEquiv1 dot_S16x1024_S16x4_S1024x4_0_0_1_1_n_n 16 rfl rfl).symm k) = ix2 k r := funext fun a => Fin.ext (by
    match a with
    | ⟨0, _⟩ => exact (lhs_coef_0 _ _).trans hk
    | ⟨1, _⟩ => exact lhs_coef_1 _ _)
  have er : dot_S16x1024_S16x4_S1024x4_0_0_1_1_n_n.rhsIdx (ix2 r j) ((ValueIdx.contrEquiv1 dot_S16x1024_S16x4_S1024x4_0_0_1_1_n_n 16 rfl rfl).symm k) = ix2 k j := funext fun a => Fin.ext (by
    match a with
    | ⟨0, _⟩ => exact (rhs_coef_0 _ _).trans hk
    | ⟨1, _⟩ => exact rhs_coef_1 _ _)
  rw [el, er, lit_eq k j]
  rfl

/-! ## The three host-computed arrays as the region finds them -/

/-- Rounding an array of extended reals to another float format changes nothing. -/
theorem truncf_id {s : Shape} (x : FVec Ideal s .f32) (h : FTy.bits .bf16 < FTy.bits .f32) :
    (truncf .bf16 x h : s.Idx → EReal) = x := rfl

/-- Window 1's array: the row softmax of the second argument. -/
theorem V_pA (c : Dev nD) :
    (V m c main_v11 : S1024x1024.Idx → EReal) = rowSoftmax (m ((c : Thread nD τ).loc main_arg1)) := by
  dsimp only [Gen.V, Gen.hostOps0]
  after_results
  rfl

set_option maxHeartbeats 4000000 in
/-- Window 2's array: the row softmax of the third argument. -/
theorem V_pB (c : Dev nD) :
    (V m c main_v23 : S1024x1024.Idx → EReal) = rowSoftmax (m ((c : Thread nD τ).loc main_arg2)) := by
  dsimp only [Gen.V, Gen.hostOps0]
  after_results_simp
  rfl

set_option maxHeartbeats 4000000 in
/-- Window 3's array: the coefficient columns, (r, j) ↦ ∑ i, pT i r * T i j with pT the column softmax of the fourth
    argument. -/
theorem V_C (c : Dev nD) (r : Fin 1024) (j : Fin 4) :
    (V m c main_v35 : S1024x4.Idx → EReal) (ix2 r j) = coef (colSoftmax (m ((c : Thread nD τ).loc main_arg3))) r j := by
  have e : (V m c main_v35 : S1024x4.Idx → EReal)
      = Host.dotGeneral dot_S16x1024_S16x4_S1024x4_0_0_1_1_n_n none (colSoftmax (m ((c : Thread nD τ).loc main_arg3)))
          (fun i => FloatOps.ofBits (F := Ideal) .f32 (lit0 (S16x4.rowMajor i))) := by
    dsimp only [Gen.V, Gen.hostOps0]
    after_results_simp
    rfl
  rw [e]
  exact coefTable_apply _ r j

end Cert.KernelIdeal.HostSide

end
-- ==== Proof.KernelPayload.lean ====
import proofs.«167358_j41910290874770_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The stored block at an entry

The kernel body computes, from a [1024,2048] block `x`, two [256,1024] blocks `p`, `q` and four
[256,1] coefficient columns `c0 … c3`, the [256,2048] block

  c0 + c1 · (p x) + c2 · (q x) + c3 · ((p x) ∘ (q x)),

where `p x`, `q x` are matrix products, `∘` is the entrywise product and each coefficient column is
repeated along the second axis. Over the extended reals a matrix product accumulated into the zero
block is the plain finite sum over the contracted axis, narrowing a value to a shorter format is the
identity, and a shape cast of a shape to itself is the identity. Reading the block at row `i` and
column `n` therefore gives the closed form of `pay_apply` below.
-/

noncomputable section

namespace Cert.KernelIdeal.Payload

open Cert.KernelIdeal Cert.KernelIdeal.Gen Idealize.ShloMosaic Idealize.ShloMosaic.ValueIdx

/-! ## The operand indices of the [256,1024] × [1024,2048] product

The product contracts axis 1 of the left operand with axis 0 of the right one and has no batch axis.
At output index `j` and contraction index `q` the left operand is read at `(j 0, q)` and the right one
at `(q, j 1)`: one statement per operand and axis. -/

/-- The left operand's row is the output's row (axis 0 is the left operand's free axis). -/
theorem lhs_0 (j : S256x2048.Idx) (q : dot_S256x1024_S1024x2048_S256x2048_1_0_0_1_n_n.contr.Idx) :
    (dot_S256x1024_S1024x2048_S256x2048_1_0_0_1_n_n.lhsIdx j q 0).val = (j 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl

/-- The left operand's column is the contraction index (axis 1 is the one contracted axis). -/
theorem lhs_1 (j : S256x2048.Idx) (q : dot_S256x1024_S1024x2048_S256x2048_1_0_0_1_n_n.contr.Idx) :
    (dot_S256x1024_S1024x2048_S256x2048_1_0_0_1_n_n.lhsIdx j q 1).val = (q ⟨0, by decide⟩).val :=
  dot_S256x1024_S1024x2048_S256x2048_1_0_0_1_n_n.lhsIdx_val_of_single rfl j q

/-- The right operand's row is the contraction index (axis 0 is the one contracted axis). -/
theorem rhs_0 (j : S256x2048.Idx) (q : dot_S256x1024_S1024x2048_S256x2048_1_0_0_1_n_n.contr.Idx) :
    (dot_S256x1024_S1024x2048_S256x2048_1_0_0_1_n_n.rhsIdx j q 0).val = (q ⟨0, by decide⟩).val :=
  dot_S256x1024_S1024x2048_S256x2048_1_0_0_1_n_n.rhsIdx_val_of_single rfl j q

/-- The right operand's column is the output's column (axis 1 is the right operand's free axis). -/
theorem rhs_1 (j : S256x2048.Idx) (q : dot_S256x1024_S1024x2048_S256x2048_1_0_0_1_n_n.contr.Idx) :
    (dot_S256x1024_S1024x2048_S256x2048_1_0_0_1_n_n.rhsIdx j q 1).val = (j 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-! ## The matrix product into the zero block is a sum -/

/-- Over the extended reals the product of a [256,1024] block `l` and a [1024,2048] block `r`, accumulated into
    the zero block, is at entry `(i, n)` the sum `∑ k, l i k * r k n`: the accumulator contributes `0`, and the
    one-axis contraction index is re-indexed by its coordinate `k : Fin 1024`. -/
theorem mm_apply (l : FVec Ideal S256x1024 .bf16) (r : FVec Ideal S1024x2048 .bf16) (i : Fin 256) (n : Fin 2048) :
    matmul (F := Ideal) dot_S256x1024_S1024x2048_S256x2048_1_0_0_1_n_n none l r (constant (F := Ideal) S256x2048 .f32 0x00000000#32) (ix2 i n)
      = ∑ k : Fin 1024, l (ix2 i k) * r (ix2 k n) := by
  simp only [matmul]
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 i n) ((contrEquiv1 dot_S256x1024_S1024x2048_S256x2048_1_0_0_1_n_n 1024 rfl rfl).symm k) = ix2 i k := funext fun a => Fin.ext (by
    match a with
    | ⟨0, _⟩ => exact lhs_0 _ _
    | ⟨1, _⟩ => exact (lhs_1 _ _).trans hk)
  have er : dot_S256x1024_S1024x2048_S256x2048_1_0_0_1_n_n.rhsIdx (ix2 i n) ((contrEquiv1 dot_S256x1024_S1024x2048_S256x2048_1_0_0_1_n_n 1024 rfl rfl).symm k) = ix2 k n := funext fun a => Fin.ext (by
    match a with
    | ⟨0, _⟩ => exact (rhs_0 _ _).trans hk
    | ⟨1, _⟩ => exact rhs_1 _ _)
  rw [el, er]

/-! ## One column repeated along the second axis -/

/-- An `[a, 1]` array broadcast to `[a, b]` reads, at `(p, c)`, the operand's one column at row `p`: the unit
    axis is read at `0`, and the first axis, of the same extent in both shapes, at `p` (when `a = 1` the row
    `p` is itself `0`). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [256,1] coefficient column repeated along the 2048 columns reads at `(i, n)` the coefficient of
    row `i`. -/
theorem coef_apply (c : FVec Ideal S256x1 .f32) (hb : S256x1.Broadcasts S256x2048) (i : Fin 256) (n : Fin 2048) :
    broadcastTo S256x2048 c hb (ix2 i n) = c (ix2 i 0) :=
  broadcastTo_a1_ab_apply c hb i n

/-! ## The stored block -/

/-- The block the kernel stores, at row `i` and column `n`: with `A = ∑ k, p i k * x k n` and
    `B = ∑ k, q i k * x k n` it is `c0 i + c1 i * A + c2 i * B + c3 i * (A * B)`. The additions and products
    of blocks are entrywise, the two matrix products are the sums `A` and `B` (`mm_apply`; the operands' shape
    casts and the narrowing of `x` are identities), and each coefficient column, cast to its own shape, is
    read at its row (`coef_apply`). -/
theorem pay_apply (x : Vec Ideal S1024x2048 .f32) (p q : Vec Ideal S256x1024 .bf16) (c0 c1 c2 c3 : Vec Ideal S256x1 .f32)
    (i : Fin 256) (n : Fin 2048) :
    k0_pay1 (F := Ideal) x p q c0 c1 c2 c3 (ix2 i n)
      = ((c0 (ix2 i 0) + c1 (ix2 i 0) * (∑ k : Fin 1024, p (ix2 i k) * x (ix2 k n)))
          + c2 (ix2 i 0) * (∑ k : Fin 1024, q (ix2 i k) * x (ix2 k n)))
        + c3 (ix2 i 0) * ((∑ k : Fin 1024, p (ix2 i k) * x (ix2 k n)) * (∑ k : Fin 1024, q (ix2 i k) * x (ix2 k n))) := by
  unfold k0_pay1
  simp only [addf_apply, mulf_apply, shapeCast_self, coef_apply, mm_apply, truncf_apply]

end Cert.KernelIdeal.Payload

end
-- ==== Proof.KernelValue.lean ====
/-
  The kernel's result array, index by index.

  The pallas_call runs over a grid of 8 × 4 points (column tile j, row tile i).  At a point the body reads the
  [1024, 2048] block (0, j) of X, the [256, 1024] blocks (i, 0) of pA and pB and the [256, 4] block (i, 0) of the
  coefficient columns C, and writes the [256, 2048] block (i, j) of the result.  So entry (a, b) of the block the
  point writes is entry (R, N) = (256 i + a, 2048 j + b) of ONE function of the arrays,
      C R 0 + C R 1 · A R N + C R 2 · B R N + C R 3 · (A R N · B R N),   A = pA · X,  B = pB · X,
  every read of an input block being a read of its array at the row R, the column N, or the contracted coordinate.
  The 32 blocks tile the [1024, 16384] array, hence the array ends holding that function: Gk of Spec.lean.
-/
import proofs.«167358_j41910290874770_1_alg».proof.Proof.Gen.KernelIdeal.Value
import proofs.«167358_j41910290874770_1_alg».proof.Proof.KernelHost
import proofs.«167358_j41910290874770_1_alg».proof.Proof.KernelPayload
import proofs.«167358_j41910290874770_1_alg».proof.Proof.Spec
import Idealize.ShloMosaic.Lib.Pipeline.Value
import Idealize.ShloMosaic.Lib.Tactic

noncomputable section

open scoped BigOperators

namespace Cert.KernelIdeal.ArrayValue

open Cert.KernelIdeal Cert.KernelIdeal.Gen Cert.KernelIdeal.Value Cert.KernelIdeal.HostSide Cert.GateMix
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps over the grid -/

/-- Where each window's block sits at a grid point, relative to the output's block (i, j): X's is (0, j); pA's, pB's
    and C's are (i, 0); and i < 4, j < 8. -/
theorem idx_facts : ∀ t : Fin cfg0.N,
    win0_0.index t (0 : Fin 2) = 0 ∧ win0_0.index t (1 : Fin 2) = win0_4.index t (1 : Fin 2)
    ∧ win0_1.index t (0 : Fin 2) = win0_4.index t (0 : Fin 2) ∧ win0_1.index t (1 : Fin 2) = 0
    ∧ win0_2.index t (0 : Fin 2) = win0_4.index t (0 : Fin 2) ∧ win0_2.index t (1 : Fin 2) = 0
    ∧ win0_3.index t (0 : Fin 2) = win0_4.index t (0 : Fin 2) ∧ win0_3.index t (1 : Fin 2) = 0
    ∧ win0_4.index t (0 : Fin 2) ≤ 3 ∧ win0_4.index t (1 : Fin 2) ≤ 7 :=
  (by decide +kernel : ∀ t : Fin grid0.N, _)

/-- Every block (i, j) of the result, i < 4 and j < 8, is some point's. -/
theorem idx_onto : ∀ (q0 : Fin 4) (q1 : Fin 8), ∃ t : Fin cfg0.N, win0_4.index t = ![q0.val, q1.val] :=
  (by decide +kernel : ∀ (q0 : Fin 4) (q1 : Fin 8), ∃ t : Fin grid0.N, win0_4.index t = ![q0.val, q1.val])

/-! ## Each input block read as its array -/

/-- The four input blocks at a point, at their literal types: X's [1024, 2048] block, pA's and pB's [256, 1024]
    blocks, C's [256, 4] block. -/
abbrev xblk (c : Dev nD) (t : Fin cfg0.N) : Vec Ideal S1024x2048 .f32 := iblk m c 0 t
abbrev pblk (c : Dev nD) (t : Fin cfg0.N) : Vec Ideal S256x1024 .bf16 := iblk m c 1 t
abbrev qblk (c : Dev nD) (t : Fin cfg0.N) : Vec Ideal S256x1024 .bf16 := iblk m c 2 t
abbrev cblk (c : Dev nD) (t : Fin cfg0.N) : Vec Ideal S256x4 .f32 := iblk m c 3 t

/-- X's block at a point, at (k, b): X at (k, 2048 j + b). -/
theorem xblk_apply (c : Dev nD) (t : Fin cfg0.N) (b : Fin 2048) (N : Fin 16384)
    (hN : N.val = win0_4.index t (1 : Fin 2) * 2048 + b.val) (k : Fin 1024) :
    xblk m c t (ix2 k b)
      = (m ((c : Thread nD τ).loc main_arg0) : S1024x16384.Idx → EReal) (ix2 k N) := by
  show (iblk m c 0 t : Vec Ideal S1024x2048 .f32) (ix2 k b) = _
  obtain ⟨e00, e01, -⟩ := idx_facts t
  unfold iblk
  rw [View.read_apply]
  show V m c main_arg0 _ = _
  rw [V_main_arg0]
  congr 1
  funext a
  apply Fin.ext
  match a with
  | ⟨0, _⟩ => show win0_0.index t (0 : Fin 2) * 1024 + 1 * k.val = k.val; omega
  | ⟨1, _⟩ => show win0_0.index t (1 : Fin 2) * 2048 + 1 * b.val = N.val; omega

/-- pA's block at a point, at (a, k): the row softmax of wA at (256 i + a, k). -/
theorem pblk_apply (c : Dev nD) (t : Fin cfg0.N) (a : Fin 256) (R : Fin 1024)
    (hR : R.val = win0_4.index t (0 : Fin 2) * 256 + a.val) (k : Fin 1024) :
    pblk m c t (ix2 a k)
      = rowSoftmax (m ((c : Thread nD τ).loc main_arg1)) (ix2 R k) := by
  show (iblk m c 1 t : Vec Ideal S256x1024 .bf16) (ix2 a k) = _
  obtain ⟨-, -, e10, e11, -⟩ := idx_facts t
  rw [← V_pA m c]
  unfold iblk
  rw [View.read_apply]
  show V m c main_v11 _ = _
  congr 1
  funext x
  apply Fin.ext
  match x with
  | ⟨0, _⟩ => show win0_1.index t (0 : Fin 2) * 256 + 1 * a.val = R.val; omega
  | ⟨1, _⟩ => show win0_1.index t (1 : Fin 2) * 1024 + 1 * k.val = k.val; omega

/-- pB's block at a point, at (a, k): the row softmax of wB at (256 i + a, k). -/
theorem qblk_apply (c : Dev nD) (t : Fin cfg0.N) (a : Fin 256) (R : Fin 1024)
    (hR : R.val = win0_4.index t (0 : Fin 2) * 256 + a.val) (k : Fin 1024) :
    qblk m c t (ix2 a k)
      = rowSoftmax (m ((c : Thread nD τ).loc main_arg2)) (ix2 R k) := by
  show (iblk m c 2 t : Vec Ideal S256x1024 .bf16) (ix2 a k) = _
  obtain ⟨-, -, -, -, e20, e21, -⟩ := idx_facts t
  rw [← V_pB m c]
  unfold iblk
  rw [View.read_apply]
  show V m c main_v23 _ = _
  congr 1
  funext x
  apply Fin.ext
  match x with
  | ⟨0, _⟩ => show win0_2.index t (0 : Fin 2) * 256 + 1 * a.val = R.val; omega
  | ⟨1, _⟩ => show win0_2.index t (1 : Fin 2) * 1024 + 1 * k.val = k.val; omega

/-- C's block at a point, at (a, j): coefficient j of row 256 i + a. -/
theorem cblk_apply (c : Dev nD) (t : Fin cfg0.N) (a : Fin 256) (R : Fin 1024)
    (hR : R.val = win0_4.index t (0 : Fin 2) * 256 + a.val) (j : Fin 4) :
    cblk m c t (ix2 a j)
      = coef (colSoftmax (m ((c : Thread nD τ).loc main_arg3))) R j := by
  show (iblk m c 3 t : Vec Ideal S256x4 .f32) (ix2 a j) = _
  obtain ⟨-, -, -, -, -, -, e30, e31, -⟩ := idx_facts t
  rw [← V_C m c R j]
  unfold iblk
  rw [View.read_apply]
  show V m c main_v35 _ = _
  congr 1
  funext x
  apply Fin.ext
  match x with
  | ⟨0, _⟩ => show win0_3.index t (0 : Fin 2) * 256 + 1 * a.val = R.val; omega
  | ⟨1, _⟩ => show win0_3.index t (1 : Fin 2) * 4 + 1 * j.val = j.val; omega

/-! ## The four one-column loads of the coefficient block -/

/-- Column j of a [256, 4] block, loaded as a [256, 1] vector, read at row a, is the block at (a, j). -/
theorem ld_col0 (x3 : Vec Ideal S256x4 .f32) (a : Fin 256) : View.ld x3 r0_2 (ix2 a (0 : Fin 1)) = x3 (ix2 a 0) := by
  show x3 (r0_2.emb (ix2 a (0 : Fin 1))) = _
  congr 1; funext x; apply Fin.ext
  match x with
  | ⟨0, _⟩ => simp only [Rect.emb_apply, Rect.off_unit, Rect.stride_unit, Nat.one_mul]; show (0 : ℕ) + a.val = a.val; omega
  | ⟨1, _⟩ => simp only [Rect.emb_apply, Rect.off_unit, Rect.stride_unit, Nat.one_mul]; show (0 : ℕ) + 0 = 0; rfl
theorem ld_col1 (x3 : Vec Ideal S256x4 .f32) (a : Fin 256) : View.ld x3 r0_3 (ix2 a (0 : Fin 1)) = x3 (ix2 a 1) := by
  show x3 (r0_3.emb (ix2 a (0 : Fin 1))) = _
  congr 1; funext x; apply Fin.ext
  match x with
  | ⟨0, _⟩ => simp only [Rect.emb_apply, Rect.off_unit, Rect.stride_unit, Nat.one_mul]; show (0 : ℕ) + a.val = a.val; omega
  | ⟨1, _⟩ => simp only [Rect.emb_apply, Rect.off_unit, Rect.stride_unit, Nat.one_mul]; show (1 : ℕ) + 0 = 1; rfl
theorem ld_col2 (x3 : Vec Ideal S256x4 .f32) (a : Fin 256) : View.ld x3 r0_4 (ix2 a (0 : Fin 1)) = x3 (ix2 a 2) := by
  show x3 (r0_4.emb (ix2 a (0 : Fin 1))) = _
  congr 1; funext x; apply Fin.ext
  match x with
  | ⟨0, _⟩ => simp only [Rect.emb_apply, Rect.off_unit, Rect.stride_unit, Nat.one_mul]; show (0 : ℕ) + a.val = a.val; omega
  | ⟨1, _⟩ => simp only [Rect.emb_apply, Rect.off_unit, Rect.stride_unit, Nat.one_mul]; show (2 : ℕ) + 0 = 2; rfl
theorem ld_col3 (x3 : Vec Ideal S256x4 .f32) (a : Fin 256) : View.ld x3 r0_5 (ix2 a (0 : Fin 1)) = x3 (ix2 a 3) := by
  show x3 (r0_5.emb (ix2 a (0 : Fin 1))) = _
  congr 1; funext x; apply Fin.ext
  match x with
  | ⟨0, _⟩ => simp only [Rect.emb_apply, Rect.off_unit, Rect.stride_unit, Nat.one_mul]; show (0 : ℕ) + a.val = a.val; omega
  | ⟨1, _⟩ => simp only [Rect.emb_apply, Rect.off_unit, Rect.stride_unit, Nat.one_mul]; show (3 : ℕ) + 0 = 3; rfl

/-! ## The two block products are entries of pA · X and pB · X -/

/-- The product of pA's block with X's block at (a, b) is (pA · X) at (256 i + a, 2048 j + b): the contraction runs
    over whole rows of pA and whole columns of X, which the blocks hold entire. -/
theorem blockA (c : Dev nD) (t : Fin cfg0.N) (a : Fin 256) (b : Fin 2048) (R : Fin 1024) (N : Fin 16384)
    (hR : R.val = win0_4.index t (0 : Fin 2) * 256 + a.val) (hN : N.val = win0_4.index t (1 : Fin 2) * 2048 + b.val) :
    ∑ k : Fin 1024, pblk m c t (ix2 a k) * xblk m c t (ix2 k b)
      = mm (rowSoftmax (m ((c : Thread nD τ).loc main_arg1))) (m ((c : Thread nD τ).loc main_arg0)) R N := by
  unfold mm
  refine Finset.sum_congr rfl fun k _ => ?_
  rw [pblk_apply m c t a R hR k, xblk_apply m c t b N hN k]

theorem blockB (c : Dev nD) (t : Fin cfg0.N) (a : Fin 256) (b : Fin 2048) (R : Fin 1024) (N : Fin 16384)
    (hR : R.val = win0_4.index t (0 : Fin 2) * 256 + a.val) (hN : N.val = win0_4.index t (1 : Fin 2) * 2048 + b.val) :
    ∑ k : Fin 1024, qblk m c t (ix2 a k) * xblk m c t (ix2 k b)
      = mm (rowSoftmax (m ((c : Thread nD τ).loc main_arg2))) (m ((c : Thread nD τ).loc main_arg0)) R N := by
  unfold mm
  refine Finset.sum_congr rfl fun k _ => ?_
  rw [qblk_apply m c t a R hR k, xblk_apply m c t b N hN k]

/-! ## What a point writes back is its block of Gk -/

/-- The layer's output in the kernel's spelling, of the argument arrays as launched. -/
abbrev GkOf (c : Dev nD) : S1024x16384.Idx → EReal :=
  Gk (m ((c : Thread nD τ).loc main_arg0)) (m ((c : Thread nD τ).loc main_arg1)) (m ((c : Thread nD τ).loc main_arg2))
    (m ((c : Thread nD τ).loc main_arg3))

/-- Entry (a, b) of the block point t stores is Gk at (256 i + a, 2048 j + b). -/
theorem stored_apply (c : Dev nD) (t : Fin cfg0.N) (a : Fin 256) (b : Fin 2048) (R : Fin 1024) (N : Fin 16384)
    (hR : R.val = win0_4.index t (0 : Fin 2) * 256 + a.val) (hN : N.val = win0_4.index t (1 : Fin 2) * 2048 + b.val) :
    k0_pay1 (F := Ideal) (View.ld (xblk m c t) r0_0) (View.ld (pblk m c t) r0_1) (View.ld (qblk m c t) r0_1)
        (View.ld (cblk m c t) r0_2) (View.ld (cblk m c t) r0_3) (View.ld (cblk m c t) r0_4) (View.ld (cblk m c t) r0_5) (ix2 a b)
      = GkOf m c (ix2 R N) := by
  refine (Cert.KernelIdeal.Payload.pay_apply _ _ _ _ _ _ _ a b).trans ?_
  rw [View.ld_unit_zero (S := S1024x2048) hz, View.ld_unit_zero (S := S256x1024) hz, View.ld_unit_zero (S := S256x1024) hz,
    ld_col0, ld_col1, ld_col2, ld_col3,
    blockA m c t a b R N hR hN, blockB m c t a b R N hR hN,
    cblk_apply m c t a R hR 0, cblk_apply m c t a R hR 1, cblk_apply m c t a R hR 2, cblk_apply m c t a R hR 3]
  rfl

/-- WHAT POINT t WRITES BACK is block t of Gk. -/
theorem flushed_eq (c : Dev nD) (t : Fin cfg0.N) :
    (dats m 0 c).flushed 4 t = ((cfg0.win 4).blk t).view.read (Elt Ideal) (GkOf m c) := by
  obtain ⟨-, -, -, -, -, -, -, -, b0, b1⟩ := idx_facts t
  rw [Value.flushed4]
  unfold out0_4
  rw [View.canon_unit_zero hz]
  refine funext fun (j : S256x2048.Idx) => ?_
  obtain ⟨a, b, rfl⟩ : ∃ (a : Fin 256) (b : Fin 2048), j = ix2 a b := ⟨j 0, j 1, eq_ix2 j⟩
  rw [View.read_apply]
  have hemb : ((cfg0.win 4).blk t).view.emb (ix2 a b)
      = (ix2 (⟨win0_4.index t (0 : Fin 2) * 256 + a.val, by omega⟩ : Fin 1024) (⟨win0_4.index t (1 : Fin 2) * 2048 + b.val, by omega⟩ : Fin 16384) : S1024x16384.Idx) := by
    funext x; apply Fin.ext
    match x with
    | ⟨0, _⟩ => show win0_4.index t (0 : Fin 2) * 256 + 1 * a.val = win0_4.index t (0 : Fin 2) * 256 + a.val; omega
    | ⟨1, _⟩ => show win0_4.index t (1 : Fin 2) * 2048 + 1 * b.val = win0_4.index t (1 : Fin 2) * 2048 + b.val; omega
  rw [hemb]
  exact stored_apply m c t a b _ _ rfl rfl

/-! ## The blocks tile the array -/

/-- An index of the array is in point t's block iff each coordinate is in the block's range on its axis. -/
theorem mem_blk (t : Fin cfg0.N) (i : S1024x16384.Idx) :
    i ∈ ((cfg0.win 4).blk t).view.set ↔ ∀ x : Fin 2, win0_4.index t x * S256x2048.size x ≤ (i x).val ∧ (i x).val < win0_4.index t x * S256x2048.size x + S256x2048.size x := by
  show i ∈ ((View.whole main_v36).slice (win0_4.rect t)).set ↔ _
  rw [View.set_slice_whole, Rect.mem_set_unit]
  exact Iff.rfl

/-- Every index (R, N) lies in the block (R / 256, N / 2048), which some point writes. -/
theorem cover (i : S1024x16384.Idx) : ∃ t : Fin cfg0.N, (cfg0.win 4).flush t = true ∧ i ∈ ((cfg0.win 4).blk t).view.set := by
  have h0 : (i 0).val < 1024 := (i 0).isLt
  have h1 : (i 1).val < 16384 := (i 1).isLt
  obtain ⟨t, ht⟩ := idx_onto ⟨(i 0).val / 256, by omega⟩ ⟨(i 1).val / 2048, by omega⟩
  have q0 : win0_4.index t (0 : Fin 2) = (i 0).val / 256 := congrFun ht 0
  have q1 : win0_4.index t (1 : Fin 2) = (i 1).val / 2048 := congrFun ht 1
  refine ⟨t, flush0_4 t, ?_⟩
  rw [mem_blk]
  intro x
  match x with
  | ⟨0, _⟩ => show win0_4.index t (0 : Fin 2) * 256 ≤ (i 0).val ∧ (i 0).val < win0_4.index t (0 : Fin 2) * 256 + 256; omega
  | ⟨1, _⟩ => show win0_4.index t (1 : Fin 2) * 2048 ≤ (i 1).val ∧ (i 1).val < win0_4.index t (1 : Fin 2) * 2048 + 2048; omega

/-- THE ARRAY after the run is Gk of the arguments. -/
theorem final (c : Dev nD) : (dats m 0 c).arrAt 4 cfg0.N = GkOf m c :=
  (dats m 0 c).arrAt_eq_of_cover 4 (GkOf m c) (fun t _ => flushed_eq m c t) cover

/-! ## The run, read -/

/-- Every weakly fair execution of the kernel's program ends with the result array at Gk of the arguments and the
    arguments unchanged. -/
theorem run : θ_run defs (onTc (τ := τ) (main (F := Ideal))) ⟨m, fun _ => 0, ρ⟩ fun r => ∀ c : Dev nD,
      r.2.mem ((c : Thread nD τ).loc main_v36) = GkOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.RefValue.lean ====
/-
  The reference program's result is the layer G.

  Read one operation at a time, the reference computes: the three max-shifted softmaxes (exactly the whole-array
  terms rowSoftmax, rowSoftmax, colSoftmax); the two matrix products A = pA · X and B = pB · X, each entry a sum
  over the contracted index; sixteen arrays, one per gate, each an elementwise expression in A, B and the
  constants 0, 1, 2, stacked along a new leading axis; the stack multiplied by the weights pT broadcast along
  the last axis; and the sum over the leading axis, started from 0.  At (r, n) this is
  0 + ∑ i, gate i (A r n) (B r n) * pT i r, which is G at (r, n).
-/
import proofs.«167358_j41910290874770_1_alg».proof.Proof.RefRead
import proofs.«167358_j41910290874770_1_alg».proof.Proof.Spec
import Idealize.ShloMosaic.Lib.Pipeline.Value
import Idealize.ShloMosaic.Lib.ValueIdx
import Mathlib.Tactic.FinCases

noncomputable section

open scoped BigOperators

namespace Cert.ReferenceIdeal.RefValue

open Cert.ReferenceIdeal Cert.ReferenceIdeal.Gen Cert.ReferenceIdeal.ReadP Cert.GateMix
open Idealize.ShloMosaic Idealize.ShloMosaic.ValueIdx

/-! ## The three softmaxes

Each is the same composition of whole-array operations as the named term: maximum along the axis joined with -∞,
subtraction of its broadcast, exponential, sum along the axis from 0, division by its broadcast. -/

/-- The softmax of the first weight array along its rows. -/
theorem v10_eq (x1 : FVec Ideal SW .f32) : val_main_v10 (F := Ideal) x1 = rowSoftmax x1 := rfl

/-- The softmax of the second weight array along its rows. -/
theorem v21_eq (x2 : FVec Ideal SW .f32) : val_main_v21 (F := Ideal) x2 = rowSoftmax x2 := rfl

/-- The softmax of the gate weights along their columns. -/
theorem v32_eq (x3 : FVec Ideal ST .f32) : val_main_v32 (F := Ideal) x3 = colSoftmax x3 := rfl

/-! ## The two matrix products at an entry -/

/-- (pA · X) r n = ∑ k, pA r k * X k n. -/
theorem v33_at (x0 : FVec Ideal SX .f32) (x1 : FVec Ideal SW .f32) (r : Fin 1024) (n : Fin 16384) :
    val_main_v33 (F := Ideal) x0 x1 (ix2 r n) = mm (rowSoftmax x1) x0 r n := by
  rw [val_main_v33_apply, v10_eq]
  unfold mm
  refine Finset.sum_congr rfl fun k _ => ?_
  have el : lidx_main_v33 (ix2 r n) k = ix2 r k :=
    funext fun a => Fin.ext (by match a with | ⟨0, _⟩ => rfl | ⟨1, _⟩ => rfl)
  have er : ridx_main_v33 (ix2 r n) k = ix2 k n :=
    funext fun a => Fin.ext (by match a with | ⟨0, _⟩ => rfl | ⟨1, _⟩ => rfl)
  rw [el, er]

/-- (pB · X) r n = ∑ k, pB r k * X k n. -/
theorem v34_at (x0 : FVec Ideal SX .f32) (x2 : FVec Ideal SW .f32) (r : Fin 1024) (n : Fin 16384) :
    val_main_v34 (F := Ideal) x0 x2 (ix2 r n) = mm (rowSoftmax x2) x0 r n := by
  rw [val_main_v34_apply, v21_eq]
  unfold mm
  refine Finset.sum_congr rfl fun k _ => ?_
  have el : lidx_main_v34 (ix2 r n) k = ix2 r k :=
    funext fun a => Fin.ext (by match a with | ⟨0, _⟩ => rfl | ⟨1, _⟩ => rfl)
  have er : ridx_main_v34 (ix2 r n) k = ix2 k n :=
    funext fun a => Fin.ext (by match a with | ⟨0, _⟩ => rfl | ⟨1, _⟩ => rfl)
  rw [el, er]

/-! ## The weights, broadcast along the last axis -/

/-- The broadcast weight at (i, r, n) is pT i r: the last coordinate is dropped. -/
theorem v80_at (x3 : FVec Ideal ST .f32) (i : Fin 16) (r : Fin 1024) (n : Fin 16384) :
    val_main_v80 (F := Ideal) x3 (ix3 i r n) = colSoftmax x3 (ix2 i r) := by
  rw [val_main_v80_apply, val_main_v79_apply, v32_eq]
  exact congrArg _ (funext fun a => Fin.ext (by match a with | ⟨0, _⟩ => rfl | ⟨1, _⟩ => rfl))

/-! ## The stack of the sixteen gates -/

/-- A [1024, 16384] array given a new leading axis of extent one: at (z, r, n) it is the array at (r, n). -/
theorem lead_apply {F : FTy → Type} [FloatOps F] (y : (⟨S1024x16384, .f32⟩ : BufTy).Contents (Elt F)) (z : Fin 1) (r : Fin 1024) (n : Fin 16384) :
    broadcastInDim S1x1024x16384 ![1, 2] bcast_S1024x16384_S1x1024x16384_1_2 y (ix3 z r n) = y (ix2 r n) :=
  broadcastInDim_apply _ bcast_S1024x16384_S1x1024x16384_1_2 y (ix3 z r n) (ix2 r n) (fun a => match a with
    | ⟨0, _⟩ => by show r.val = if (1024 : Nat) = 1 then 0 else r.val; rw [if_neg (by decide)]
    | ⟨1, _⟩ => by show n.val = if (16384 : Nat) = 1 then 0 else n.val; rw [if_neg (by decide)])

/-- The member of a family of sixteen that an index below sixteen names. -/
def pick16 {β : Type} (p0 p1 p2 p3 p4 p5 p6 p7 p8 p9 p10 p11 p12 p13 p14 p15 : β) : Fin 16 → β
  | 0 => p0
  | 1 => p1
  | 2 => p2
  | 3 => p3
  | 4 => p4
  | 5 => p5
  | 6 => p6
  | 7 => p7
  | 8 => p8
  | 9 => p9
  | 10 => p10
  | 11 => p11
  | 12 => p12
  | 13 => p13
  | 14 => p14
  | 15 => p15
  | ⟨_ + 16, h⟩ => absurd h (Nat.not_lt.2 (Nat.le_add_left _ _))

/-- Sixteen [1, 1024, 16384] pieces joined along the leading axis: at (i, r, n) the result is piece i at (0, r, n),
    because every piece has extent one along that axis, so the coordinate i names the piece. -/
theorem stack16_apply (p0 p1 p2 p3 p4 p5 p6 p7 p8 p9 p10 p11 p12 p13 p14 p15 : S1x1024x16384.Idx → EReal)
    (h : Shape.Concatenates (([⟨S1x1024x16384, p0⟩, ⟨S1x1024x16384, p1⟩, ⟨S1x1024x16384, p2⟩, ⟨S1x1024x16384, p3⟩, ⟨S1x1024x16384, p4⟩, ⟨S1x1024x16384, p5⟩, ⟨S1x1024x16384, p6⟩, ⟨S1x1024x16384, p7⟩, ⟨S1x1024x16384, p8⟩, ⟨S1x1024x16384, p9⟩, ⟨S1x1024x16384, p10⟩, ⟨S1x1024x16384, p11⟩, ⟨S1x1024x16384, p12⟩, ⟨S1x1024x16384, p13⟩, ⟨S1x1024x16384, p14⟩, ⟨S1x1024x16384, p15⟩] :
      List ((s : Shape) × (s.Idx → EReal))).map (·.1)) S16x1024x16384 0)
    (i : Fin 16) (r : Fin 1024) (n : Fin 16384) :
    concatenate S16x1024x16384 0 [⟨S1x1024x16384, p0⟩, ⟨S1x1024x16384, p1⟩, ⟨S1x1024x16384, p2⟩, ⟨S1x1024x16384, p3⟩, ⟨S1x1024x16384, p4⟩, ⟨S1x1024x16384, p5⟩, ⟨S1x1024x16384, p6⟩, ⟨S1x1024x16384, p7⟩, ⟨S1x1024x16384, p8⟩, ⟨S1x1024x16384, p9⟩, ⟨S1x1024x16384, p10⟩, ⟨S1x1024x16384, p11⟩, ⟨S1x1024x16384, p12⟩, ⟨S1x1024x16384, p13⟩, ⟨S1x1024x16384, p14⟩, ⟨S1x1024x16384, p15⟩] h (ix3 i r n)
      = (pick16 p0 p1 p2 p3 p4 p5 p6 p7 p8 p9 p10 p11 p12 p13 p14 p15 i) (ix3 0 r n) :=
  concatenate_ofFn_unit_apply (t := S16x1024x16384) (s₁ := S1x1024x16384) 0
    (pick16 p0 p1 p2 p3 p4 p5 p6 p7 p8 p9 p10 p11 p12 p13 p14 p15) h rfl rfl (ix3 i r n) i rfl (ix3 0 r n)
    (fun b hb => by
      match b with
      | ⟨0, _⟩ => exact absurd rfl hb
      | ⟨1, _⟩ => rfl
      | ⟨2, _⟩ => rfl)

/-- The stack at (i, r, n) is gate i of a = (pA · X) r n and b = (pB · X) r n: each piece is the elementwise
    expression of the gate in the two products and the broadcast constants 0, 1, 2, read at (r, n). -/
theorem v78_at (x0 : FVec Ideal SX .f32) (x1 x2 : FVec Ideal SW .f32) (i : Fin 16) (r : Fin 1024) (n : Fin 16384) :
    val_main_v78 (F := Ideal) x0 x1 x2 (ix3 i r n)
      = gate (mm (rowSoftmax x1) x0 r n) (mm (rowSoftmax x2) x0 r n) i := by
  rw [← v33_at x0 x1 r n, ← v34_at x0 x2 r n]
  unfold val_main_v78
  rw [stack16_apply]
  fin_cases i <;>
    simp only [pick16, gate,
      val_main_v62, val_main_v63, val_main_v64, val_main_v65, val_main_v66, val_main_v67, val_main_v68, val_main_v69,
      val_main_v70, val_main_v71, val_main_v72, val_main_v73, val_main_v74, val_main_v75, val_main_v76, val_main_v77] <;>
    refine (lead_apply _ 0 r n).trans ?_ <;>
    simp only [val_main_v35_apply, val_main_v36_apply, val_main_v37_apply, val_main_v38_apply, val_main_v40_apply,
      val_main_v41_apply, val_main_v43_apply, val_main_v44_apply, val_main_v46_apply, val_main_v48_apply,
      val_main_v50_apply, val_main_v52_apply, val_main_v53_apply, val_main_v55_apply, val_main_v57_apply,
      val_main_v58_apply, val_main_v60_apply,
      val_main_v39_apply, val_main_v42_apply, val_main_v45_apply, val_main_v47_apply, val_main_v49_apply,
      val_main_v51_apply, val_main_v54_apply, val_main_v56_apply, val_main_v59_apply, val_main_v61_apply,
      val_main_cst_8_apply, val_main_cst_9_apply, val_main_cst_10_apply, val_main_cst_11_apply, val_main_cst_12_apply,
      val_main_cst_13_apply, val_main_cst_14_apply, val_main_cst_15_apply, val_main_cst_16_apply, val_main_cst_17_apply,
      Ideal.addf_def, Ideal.subf_def, Ideal.mulf_def, Ideal.ofBits_def]

/-! ## The result -/

/-- The reference's result is G: at (r, n), 0 plus the sum over the sixteen gates of gate i (A r n) (B r n) * pT i r. -/
theorem ref_eq_G (x0 : FVec Ideal Cert.GateMix.SX .f32) (x1 x2 : FVec Ideal Cert.GateMix.SW .f32) (x3 : FVec Ideal Cert.GateMix.ST .f32) :
    Cert.ReferenceIdeal.ReadP.val_main_v82 (F := Ideal) x0 x1 x2 x3 = Cert.GateMix.G x0 x1 x2 x3 := by
  funext j
  obtain ⟨r, n, rfl⟩ : ∃ (r : Fin 1024) (n : Fin 16384), j = ix2 r n := ⟨j 0, j 1, eq_ix2 j⟩
  rw [val_main_v82_apply, G_apply]
  unfold refMix
  refine congrArg₂ (· + ·) rfl (Finset.sum_congr rfl fun i _ => ?_)
  have e : idx_main_v82 (ix2 r n) i = ix3 i r n :=
    funext fun a => Fin.ext (by match a with | ⟨0, _⟩ => rfl | ⟨1, _⟩ => rfl | ⟨2, _⟩ => rfl)
  rw [e, val_main_v81_apply, v78_at, v80_at]
  rfl

end Cert.ReferenceIdeal.RefValue

end
-- ==== Proof.SoftmaxRow.lean ====
/-
  The row softmax of a real matrix is real, and so is every entry of a product of real matrices.

  For w : [1024, 1024] with real entries, row r of the softmax is  exp (w r k - M r) / ∑ k', exp (w r k' - M r),
  M r the largest entry of row r joined with -∞.  The row is not empty, so M r is a real number; every exponent is
  then real, every exponential a POSITIVE real, the row's sum a positive real, in particular not zero, and a real
  divided by a nonzero real is real.  None of this needs to know WHICH entry a broadcast reads: a broadcast only reads
  entries of its operand, so whatever holds of every entry of the operand holds of every entry of the broadcast.
-/
import proofs.«167358_j41910290874770_1_alg».proof.Proof.Spec
import Idealize.ShloMosaic.PureOps.Reduce
import Idealize.ShloMosaic.PureOps.Ideal.Laws
import Mathlib.Data.EReal.Basic
import Mathlib.Data.EReal.Inv
import Mathlib.Analysis.Complex.Exponential
import Mathlib.Algebra.BigOperators.Group.Finset.Basic
import Mathlib.Algebra.Order.BigOperators.Group.Finset
import Mathlib.Data.Finset.Fold

noncomputable section

open scoped BigOperators

namespace Cert.GateMix

open Idealize.ShloMosaic Idealize.ShloMosaic.ValueIdx

/-! ## Three facts about finite families of reals inside the extended reals -/

/-- A finite sum of (coerced) reals is the coercion of the real sum: induction on the index set, the coercion being
    additive. -/
theorem coe_finset_sum {ι : Type*} (s : Finset ι) (f : ι → ℝ) :
    ∑ i ∈ s, ((f i : ℝ) : EReal) = ((∑ i ∈ s, f i : ℝ) : EReal) := by
  classical
  refine Finset.induction_on s ?_ ?_
  · simp
  · intro a s ha ih
    rw [Finset.sum_insert ha, Finset.sum_insert ha, ih, EReal.coe_add]

/-- The larger of two reals, taken in the extended reals, is a real: it is one of the two. -/
theorem max_coe_real (a b : ℝ) : ∃ v : ℝ, max (a : EReal) (b : EReal) = (v : EReal) := by
  rcases le_total (a : EReal) (b : EReal) with h | h
  · exact ⟨b, max_eq_right h⟩
  · exact ⟨a, max_eq_left h⟩

/-- The fold of max from -∞ over a finite family of reals is -∞ only over the empty family, and a real otherwise:
    induction on the family, max (a) (-∞) = a and the max of two reals being real. -/
theorem fold_max_bot_real {ι : Type*} (s : Finset ι) (f : ι → ℝ) :
    (s = ∅ ∧ s.fold max (⊥ : EReal) (fun i => (f i : EReal)) = ⊥)
      ∨ ∃ v : ℝ, s.fold max (⊥ : EReal) (fun i => (f i : EReal)) = (v : EReal) := by
  classical
  refine Finset.induction_on s ?_ ?_
  · exact Or.inl ⟨rfl, Finset.fold_empty⟩
  · intro a s ha ih
    right
    rw [Finset.fold_insert ha]
    rcases ih with ⟨_, h0⟩ | ⟨v, hv⟩
    · rw [h0]; exact ⟨f a, max_eq_left bot_le⟩
    · rw [hv]; exact max_coe_real (f a) v

/-- Over a nonempty family that fold is a real number. -/
theorem fold_max_bot_real_of_nonempty {ι : Type*} (s : Finset ι) (hs : s.Nonempty) (f : ι → ℝ) :
    ∃ v : ℝ, s.fold max (⊥ : EReal) (fun i => (f i : EReal)) = (v : EReal) := by
  rcases fold_max_bot_real s f with ⟨h0, _⟩ | h
  · exact absurd h0 hs.ne_empty
  · exact h

/-! ## What holds of every entry survives a broadcast -/

/-- A broadcast reads only entries of its operand. -/
theorem broadcastInDim_all {α : Type} {s t : Shape} (dims : Fin s.rank → Fin t.rank) (h : s.BroadcastsInDim t dims)
    (x : s.Idx → α) (Q : α → Prop) (hx : ∀ k, Q (x k)) (j : t.Idx) : Q (broadcastInDim t dims h x j) := by
  unfold broadcastInDim
  exact hx _

/-! ## The two float words of the reductions' initial values -/

/-- The word 0xFF800000 reads as -∞. -/
theorem ofBits_negInf : Ideal.ofBits .f32 0xFF800000#32 = (⊥ : EReal) := by simp [Ideal.ofBits, Ideal.ieee]

/-- The [1024, 1024] shape's second axis has 1024 coordinates, so a row is not empty. -/
theorem row_nonempty : (Finset.univ : Finset (Fin (SW.size 1))).Nonempty :=
  ⟨⟨0, by decide⟩, Finset.mem_univ _⟩

theorem reduces_SW : SW.Reduces [1] SV := by decide

/-! ## The row maximum -/

/-- The row maximum of a real matrix is real: it is max (-∞) of the fold of max from -∞ over the row's 1024 entries,
    a nonempty family of reals. -/
theorem rowMax_real (g : SW.Idx → ℝ) (j : SV.Idx) :
    ∃ m : ℝ, rowMax (fun i => (g i : EReal)) j = (m : EReal) := by
  obtain ⟨m, hm⟩ := fold_max_bot_real_of_nonempty Finset.univ row_nonempty (fun k => g (reduces_SW.lift j k))
  refine ⟨m, ?_⟩
  unfold rowMax
  rw [maximumf_apply, Host.reduce_eq_fold_single FloatOps.maximumf _ _ red_SW reduces_SW h_S0 j]
  have hb : broadcastInDim SV ![] bc_S0_SV (constant (F := Ideal) S0 .f32 0xFF800000#32) j = (⊥ : EReal) :=
    broadcastInDim_all _ _ _ (fun y => y = (⊥ : EReal)) (fun _ => ofBits_negInf) j
  have hc : constant (F := Ideal) S0 .f32 0xFF800000#32 (Shape.Idx.first h_S0) = (⊥ : EReal) := ofBits_negInf
  rw [hb, hc]
  refine (max_eq_right bot_le).trans ?_
  exact hm

/-! ## The elementwise steps, for arbitrary vectors -/

/-- exp (a - b) at an entry where a reads the real x and b the real y is the positive real exp (x - y). -/
theorem hostExp_sub_coe {s : Shape} (a b : FVec Ideal s .f32) (i : s.Idx) (x y : ℝ) (ha : a i = (x : EReal))
    (hb : b i = (y : EReal)) : Host.exp (subf a b) i = ((Real.exp (x - y) : ℝ) : EReal) := by
  show Ideal.exp (a i - b i) = _
  rw [ha, hb, ← EReal.coe_sub, Ideal.exp_coe]

/-- A real divided by a nonzero real is real. -/
theorem div_coe_real (a b : ℝ) (hb : b ≠ 0) : ∃ v : ℝ, Ideal.div (a : EReal) (b : EReal) = (v : EReal) :=
  ⟨a * (1 / b), by rw [Ideal.div_coe hb, EReal.coe_mul]⟩

/-- The host's quotient at an entry where the dividend reads a real and the divisor a nonzero real is real. -/
theorem hostDivf_real {s : Shape} (a b : FVec Ideal s .f32) (i : s.Idx) (x y : ℝ) (hy : y ≠ 0) (ha : a i = (x : EReal))
    (hb : b i = (y : EReal)) : ∃ v : ℝ, Host.divf a b i = (v : EReal) := by
  show ∃ v : ℝ, Ideal.div (a i) (b i) = (v : EReal)
  rw [ha, hb]
  exact div_coe_real x y hy

/-- The host's sum over the rows of a [1024, 1024] array from the word 0, at row j: the sum of the row's entries. -/
theorem hostRowSum_apply (x : FVec Ideal SW .f32) (j : SV.Idx) :
    Host.reduceAdd x (constant S0 .f32 0x00000000#32) red_SW h_S0 j = ∑ k : Fin (SW.size 1), x (reduces_SW.lift j k) := by
  unfold Host.reduceAdd
  rw [Ideal.hostReduceAdd_def, Ideal.hostReduceAdd_single red_SW reduces_SW]
  have hc : constant (F := Ideal) S0 .f32 0x00000000#32 (Shape.Idx.first h_S0) = (0 : EReal) := Ideal.ofBits_zero_f32
  rw [hc, zero_add]

/-! ## The row softmax, step by step, of a matrix given as the coercion of a real one -/

/-- Every entry of rowExp of a real matrix is a positive real: exp of a real minus a real. -/
theorem rowExp_pos (g : SW.Idx → ℝ) (i : SW.Idx) :
    ∃ v : ℝ, 0 < v ∧ rowExp (fun i => (g i : EReal)) i = (v : EReal) := by
  have hM : ∃ m : ℝ, broadcastInDim SW ![0, 1] bc_SCol_SW
      (broadcastInDim SCol ![0] bc_SV_SCol (rowMax (fun i => (g i : EReal)))) i = (m : EReal) :=
    broadcastInDim_all _ _ _ (fun y => ∃ m : ℝ, y = (m : EReal))
      (fun k => broadcastInDim_all _ _ _ (fun y => ∃ m : ℝ, y = (m : EReal)) (fun k' => rowMax_real g k') k) i
  obtain ⟨m, hm⟩ := hM
  exact ⟨Real.exp (g i - m), Real.exp_pos _, hostExp_sub_coe _ _ i (g i) m rfl hm⟩

/-- Every row sum of rowExp of a real matrix is a positive real: a sum of 1024 positive reals. -/
theorem rowSum_pos (g : SW.Idx → ℝ) (j : SV.Idx) :
    ∃ v : ℝ, 0 < v ∧ rowSum (fun i => (g i : EReal)) j = (v : EReal) := by
  choose e he_pos he using rowExp_pos g
  refine ⟨∑ k : Fin (SW.size 1), e (reduces_SW.lift j k), Finset.sum_pos (fun k _ => he_pos _) row_nonempty, ?_⟩
  refine (hostRowSum_apply (rowExp (fun i => (g i : EReal))) j).trans ?_
  rw [← coe_finset_sum]
  exact Finset.sum_congr rfl (fun k _ => he _)

/-! ## The two theorems -/

/-- Every entry of the row softmax of a real matrix is real. -/
theorem rowSoftmax_real (w : FVec Ideal SW .f32) (hw : AllReal w) : AllReal (rowSoftmax w) := by
  choose g hg using hw
  have hwg : w = fun i => (g i : EReal) := funext hg
  subst hwg
  intro i
  obtain ⟨a, _, ha⟩ := rowExp_pos g i
  have hS : ∃ b : ℝ, 0 < b ∧ broadcastInDim SW ![0, 1] bc_SCol_SW
      (broadcastInDim SCol ![0] bc_SV_SCol (rowSum (fun i => (g i : EReal)))) i = (b : EReal) :=
    broadcastInDim_all _ _ _ (fun y => ∃ b : ℝ, 0 < b ∧ y = (b : EReal))
      (fun k => broadcastInDim_all _ _ _ (fun y => ∃ b : ℝ, 0 < b ∧ y = (b : EReal)) (fun k' => rowSum_pos g k') k) i
  obtain ⟨b, hb_pos, hb⟩ := hS
  exact hostDivf_real _ _ i a b (ne_of_gt hb_pos) ha hb

/-- Every entry of the product of two real matrices is real: a finite sum of products of reals. -/
theorem mm_real (P : FVec Ideal SW .f32) (X : FVec Ideal SX .f32) (hP : AllReal P) (hX : AllReal X)
    (r : Fin 1024) (n : Fin 16384) : ∃ v : ℝ, mm P X r n = (v : EReal) := by
  choose p hp using hP
  choose x hx using hX
  refine ⟨∑ k : Fin 1024, p (ix2 r k) * x (ix2 k n), ?_⟩
  unfold mm
  rw [← coe_finset_sum]
  exact Finset.sum_congr rfl (fun k _ => by rw [hp, hx, EReal.coe_mul])

end Cert.GateMix

end
-- ==== Proof.SoftmaxCol.lean ====
/-
  The column softmax of a real [16, 1024] array has real entries.

  For w with every entry real, column r of w has the maximum M r = max (-∞) (max over i of w i r), which is real: it
  is at least an entry of the column (so above -∞) and every candidate is below +∞.  Hence each exponent w i r - M r
  is real, each exp (w i r - M r) is a positive real, the column's sum 0 + ∑ i, exp (w i r - M r) is a positive real,
  and the quotient of a real by a nonzero real is real.

  The whole-array terms are read one entry at a time: a broadcast reads its operand at some index, a reduction over
  one axis with a maximum body is the fold of max over that axis's coordinates, and the sum over one axis is the
  initial value plus the sum over that axis's coordinates.  Realness is a statement about every entry, so which
  entry a broadcast reads never has to be computed.
-/
import proofs.«167358_j41910290874770_1_alg».proof.Proof.Spec
import Idealize.ShloMosaic.PureOps.Reduce
import Idealize.ShloMosaic.PureOps.Ideal.Laws
import Mathlib.Data.Finset.Fold
import Mathlib.Data.EReal.Basic
import Mathlib.Data.EReal.Operations
import Mathlib.Analysis.Complex.Exponential

noncomputable section

open scoped BigOperators

namespace Cert.GateMix.Col

open Idealize.ShloMosaic Idealize.ShloMosaic.ValueIdx

/-! ## Finite sums and finite maxima of real numbers inside the extended reals -/

/-- "Every entry is a positive real number". -/
def AllPos {s : Shape} (x : s.Idx → EReal) : Prop := ∀ i, ∃ v : ℝ, 0 < v ∧ x i = (v : EReal)

/-- A positive real array is a real array. -/
theorem AllPos.allReal {s : Shape} {x : s.Idx → EReal} (hx : AllPos x) : AllReal x :=
  fun i => let ⟨v, _, hv⟩ := hx i; ⟨v, hv⟩

/-- The inclusion of the reals in the extended reals commutes with finite sums (induction on the index set, with
    additivity of the inclusion at each step). -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A sum of positive reals over a nonempty index set is a positive real. -/
theorem sum_pos_real {ι : Type} (s : Finset ι) (hs : s.Nonempty) (g : ι → EReal)
    (hg : ∀ k, ∃ v : ℝ, 0 < v ∧ g k = (v : EReal)) : ∃ v : ℝ, 0 < v ∧ ∑ k ∈ s, g k = (v : EReal) := by
  choose f hf using hg
  refine ⟨∑ k ∈ s, f k, Finset.sum_pos (fun k _ => (hf k).1) hs, ?_⟩
  rw [← coe_sum]
  exact Finset.sum_congr rfl fun k _ => (hf k).2

/-- The maximum, taken from -∞, of real numbers over a nonempty index set is real: it is below +∞ because -∞ and every
    candidate are, and above -∞ because it is at least one of the candidates. -/
theorem fold_max_real {ι : Type} (s : Finset ι) (hs : s.Nonempty) (g : ι → EReal)
    (hg : ∀ k, ∃ v : ℝ, g k = (v : EReal)) : ∃ v : ℝ, s.fold max ⊥ g = (v : EReal) := by
  have htop : s.fold max ⊥ g ≠ ⊤ := by
    apply ne_of_lt
    rw [Finset.fold_max_lt]
    exact ⟨bot_lt_top, fun k _ => by obtain ⟨v, hv⟩ := hg k; rw [hv]; exact EReal.coe_lt_top v⟩
  have hbot : s.fold max ⊥ g ≠ ⊥ := by
    obtain ⟨k, hk⟩ := hs
    obtain ⟨v, hv⟩ := hg k
    apply ne_of_gt
    rw [Finset.lt_fold_max]
    exact Or.inr ⟨k, hk, by rw [hv]; exact EReal.bot_lt_coe v⟩
  exact ⟨_, (EReal.coe_toReal htop hbot).symm⟩

/-! ## The layout operations keep "every entry is real" -/

/-- A broadcast reads its operand at some index, so it keeps every property that holds at all indices: realness … -/
theorem allReal_broadcastInDim {s t : Shape} (dims : Fin s.rank → Fin t.rank) (h : s.BroadcastsInDim t dims)
    (x : s.Idx → EReal) (hx : AllReal x) : AllReal (broadcastInDim t dims h x) := fun _ => hx _

/-- … and positivity. -/
theorem allPos_broadcastInDim {s t : Shape} (dims : Fin s.rank → Fin t.rank) (h : s.BroadcastsInDim t dims)
    (x : s.Idx → EReal) (hx : AllPos x) : AllPos (broadcastInDim t dims h x) := fun _ => hx _

/-! ## The column softmax, entry by entry -/

/-- The word 0xFF800000 is -∞. -/
theorem ofBits_negInf : Ideal.ofBits .f32 0xFF800000#32 = ⊥ := by simp [Ideal.ofBits, Ideal.ieee]

/-- The reduction over axis 0 of a [16, 1024] array, as the fact that names the re-inserted coordinate. -/
theorem reduces_ST : ST.Reduces [0] SV := by decide

/-- The sixteen coordinates of a column are not the empty set. -/
theorem univ_col_nonempty : (Finset.univ : Finset (Fin (ST.size 0))).Nonempty := ⟨⟨0, by decide⟩, Finset.mem_univ _⟩

/-- Every column maximum of a real array is real. -/
theorem colMax_real (w : FVec Ideal ST .f32) (hw : AllReal w) : AllReal (colMax w) := by
  intro j
  -- the reduction at j is the fold of max from -∞ over the column's coordinates
  have hfold : Host.reduce FloatOps.maximumf w (constant S0 .f32 0xFF800000#32) red_ST h_S0 j
      = (Finset.univ : Finset (Fin (ST.size 0))).fold max ⊥ (w ∘ reduces_ST.lift j) := by
    rw [Host.reduce_eq_fold_single FloatOps.maximumf w _ red_ST reduces_ST h_S0 j]
    have hi : constant (F := Ideal) S0 .f32 0xFF800000#32 (Shape.Idx.first h_S0) = (⊥ : EReal) := ofBits_negInf
    rw [hi]
    rfl
  obtain ⟨m, hm⟩ := fold_max_real Finset.univ univ_col_nonempty (w ∘ reduces_ST.lift j) (fun _ => hw _)
  refine ⟨m, ?_⟩
  show max (Ideal.ofBits .f32 0xFF800000#32)
    (Host.reduce FloatOps.maximumf w (constant S0 .f32 0xFF800000#32) red_ST h_S0 j) = (m : EReal)
  rw [hfold, hm, ofBits_negInf]
  exact max_eq_right bot_le

/-- Every entry exp (w i r - M r) is a positive real: the exponent is a difference of reals. -/
theorem colExp_pos (w : FVec Ideal ST .f32) (hw : AllReal w) : AllPos (colExp w) := by
  intro j
  obtain ⟨a, ha⟩ := hw j
  obtain ⟨m, hm⟩ := allReal_broadcastInDim ![0, 1] bc_SRow_ST _
    (allReal_broadcastInDim ![1] bc_SV_SRow _ (colMax_real w hw)) j
  refine ⟨Real.exp (a - m), Real.exp_pos _, ?_⟩
  show Ideal.exp (w j - broadcastInDim ST ![0, 1] bc_SRow_ST (broadcastInDim SRow ![1] bc_SV_SRow (colMax w)) j)
    = ((Real.exp (a - m) : ℝ) : EReal)
  rw [ha, hm, ← EReal.coe_sub, Ideal.exp_coe]

/-- Every column sum 0 + ∑ i, exp (w i r - M r) is a positive real. -/
theorem colSum_pos (w : FVec Ideal ST .f32) (hw : AllReal w) : AllPos (colSum w) := by
  intro j
  -- the sum over axis 0 at j is the initial value plus the sum over the column's coordinates
  have h0 : colSum w j
      = Ideal.ofBits .f32 0x00000000#32 + ∑ k : Fin (ST.size 0), colExp w (reduces_ST.lift j k) :=
    Ideal.hostReduceAdd_single red_ST reduces_ST (colExp w) _ j
  obtain ⟨v, hv, hs⟩ := sum_pos_real Finset.univ univ_col_nonempty (fun k => colExp w (reduces_ST.lift j k))
    (fun _ => colExp_pos w hw _)
  exact ⟨v, hv, by rw [h0, hs, Ideal.ofBits_zero_f32, zero_add]⟩

end Cert.GateMix.Col

namespace Cert.GateMix

open Idealize.ShloMosaic Idealize.ShloMosaic.ValueIdx

/-- If every entry of w is real, every entry of its column softmax exp (w i r - M r) / ∑ i', exp (w i' r - M r) is
    real: a real divided by a nonzero (indeed positive) real is the product with the reciprocal. -/
theorem colSoftmax_real (w : FVec Ideal ST .f32) (hw : AllReal w) : AllReal (colSoftmax w) := by
  intro j
  obtain ⟨e, _, he⟩ := Col.colExp_pos w hw j
  obtain ⟨d, hd, hd'⟩ := Col.allPos_broadcastInDim ![0, 1] bc_SRow_ST _
    (Col.allPos_broadcastInDim ![1] bc_SV_SRow _ (Col.colSum_pos w hw)) j
  refine ⟨e * (1 / d), ?_⟩
  show Ideal.div (colExp w j)
    (broadcastInDim ST ![0, 1] bc_SRow_ST (broadcastInDim SRow ![1] bc_SV_SRow (colSum w)) j) = ((e * (1 / d) : ℝ) : EReal)
  rw [he, hd', Ideal.div_coe hd.ne', ← EReal.coe_mul]

end Cert.GateMix

end
-- ==== Proof.GateLaw.lean ====
/-
  The gate law: on real arguments the kernel's mix of the sixteen soft gates equals the reference's.

  Every gate is an affine combination of 1, a, b and a·b.  With k i j the real number that the coefficient
  word coefBits i j denotes, gate i a b = k i 0 + k i 1·a + k i 2·b + k i 3·(a·b); weighting by a real column
  p and summing over i, the reference's 0 + ∑ i, gate i a b * p i and the kernel's
  ((c0 + c1·a) + c2·b) + c3·(a·b), c_j = ∑ i, p i * k i j, are one polynomial identity over ℝ.  All of it is
  done under a single coercion ℝ → EReal, because distributivity fails on the extended reals at infinities.
-/
import proofs.«167358_j41910290874770_1_alg».proof.Proof.Spec
import Mathlib.Data.EReal.Operations
import Mathlib.Tactic.FinCases
import Mathlib.Tactic.Ring
import Mathlib.Tactic.NormNum

noncomputable section

open scoped BigOperators

namespace Cert.GateMix

open Idealize.ShloMosaic Idealize.ShloMosaic.ValueIdx

/-! ## The five float words, as real numbers

Each is read off the IEEE pattern: sign bit, exponent field minus the bias 127, and the significand 2²³ (no
fraction bits set), so the value is ± 2²³ · 2^(E - 127 - 23). -/

/-- The word of +0.0 denotes the real 0. -/
theorem ofBits_w0 : Ideal.ofBits .f32 w0 = ((0 : ℝ) : EReal) := by
  show Ideal.ofBits .f32 0x00000000#32 = _
  simp [Ideal.ofBits, Ideal.ieee]

/-- The word of 1.0 (exponent field 127) denotes the real 1. -/
theorem ofBits_w1 : Ideal.ofBits .f32 w1 = ((1 : ℝ) : EReal) := by
  show Ideal.ofBits .f32 0x3F800000#32 = _
  simp [Ideal.ofBits, Ideal.ieee, -EReal.coe_mul]; norm_num

/-- The word of 2.0 (exponent field 128) denotes the real 2. -/
theorem ofBits_w2 : Ideal.ofBits .f32 w2 = ((2 : ℝ) : EReal) := by
  show Ideal.ofBits .f32 0x40000000#32 = _
  simp [Ideal.ofBits, Ideal.ieee, -EReal.coe_mul]; norm_num

/-- The word of -1.0 (sign bit set, exponent field 127) denotes the real -1. -/
theorem ofBits_wm1 : Ideal.ofBits .f32 wm1 = ((-1 : ℝ) : EReal) := by
  show Ideal.ofBits .f32 0xBF800000#32 = _
  simp [Ideal.ofBits, Ideal.ieee, -EReal.coe_mul]; norm_num

/-- The word of -2.0 (sign bit set, exponent field 128) denotes the real -2. -/
theorem ofBits_wm2 : Ideal.ofBits .f32 wm2 = ((-2 : ℝ) : EReal) := by
  show Ideal.ofBits .f32 0xC0000000#32 = _
  simp [Ideal.ofBits, Ideal.ieee, -EReal.coe_mul]; norm_num

/-! ## The coefficient table over ℝ -/

/-- The real number that coefficient word (i, j) denotes. -/
def kR (i : Fin 16) (j : Fin 4) : ℝ := (Ideal.ofBits .f32 (coefBits i j)).toReal

/-- Every coefficient word denotes a real number (each is one of the five words above). -/
theorem ofBits_coefBits (i : Fin 16) (j : Fin 4) :
    Ideal.ofBits .f32 (coefBits i j) = ((kR i j : ℝ) : EReal) := by
  unfold kR
  fin_cases i <;> fin_cases j <;>
    simp [coefBits, ofBits_w0, ofBits_w1, ofBits_w2, ofBits_wm1, ofBits_wm2]

/-- Every gate is affine in 1, a, b, a·b, with the table's coefficients: case by case, each side is a
    polynomial in the reals a and b, and the two polynomials are equal. -/
theorem gate_affine (a b : ℝ) (i : Fin 16) :
    gate (a : EReal) (b : EReal) i
      = ((kR i 0 + kR i 1 * a + kR i 2 * b + kR i 3 * (a * b) : ℝ) : EReal) := by
  fin_cases i <;>
    simp only [gate, kR, coefBits, ofBits_w0, ofBits_w1, ofBits_w2, ofBits_wm1, ofBits_wm2,
      Matrix.cons_val_zero, Matrix.cons_val_one, Matrix.cons_val_two, Matrix.cons_val_three,
      Matrix.head_cons, Matrix.tail_cons, EReal.toReal_coe,
      ← EReal.coe_mul, ← EReal.coe_add, ← EReal.coe_sub] <;>
    exact congrArg _ (by ring)

/-! ## Finite sums of reals under the coercion -/

/-- The coercion ℝ → EReal carries a finite sum to the sum of the coercions (it is additive). -/
theorem coe_finsum {ι : Type*} (s : Finset ι) (f : ι → ℝ) :
    ((∑ i ∈ s, f i : ℝ) : EReal) = ∑ i ∈ s, (f i : EReal) := by
  classical
  induction s using Finset.induction_on with
  | empty => simp
  | insert _ _ h ih => rw [Finset.sum_insert h, Finset.sum_insert h, EReal.coe_add, ih]

/-! ## The law -/

/-- On real arguments and a real weight column, the kernel's mix equals the reference's: both are the
    coercion of one real polynomial, compared term by term under the sum over the sixteen gates. -/
theorem kerMix_eq_refMix (pT : FVec Ideal ST .f32) (hpT : AllReal pT) (r : Fin 1024) (a b : ℝ) :
    kerMix pT r (a : EReal) (b : EReal) = refMix pT r (a : EReal) (b : EReal) := by
  choose p hp using fun i : Fin 16 => hpT (ix2 i r)
  have hc : ∀ j : Fin 4, coef pT r j = ((∑ i : Fin 16, p i * kR i j : ℝ) : EReal) := by
    intro j
    rw [coe_finsum]
    exact Finset.sum_congr rfl fun i _ => by rw [hp i, ofBits_coefBits, EReal.coe_mul]
  have hr : (∑ i : Fin 16, gate (a : EReal) (b : EReal) i * pT (ix2 i r))
      = ((∑ i : Fin 16, (kR i 0 + kR i 1 * a + kR i 2 * b + kR i 3 * (a * b)) * p i : ℝ) : EReal) := by
    rw [coe_finsum]
    exact Finset.sum_congr rfl fun i _ => by rw [hp i, gate_affine, EReal.coe_mul]
  unfold kerMix refMix
  rw [hc 0, hc 1, hc 2, hc 3, hr, ofBits_w0,
    ← EReal.coe_mul, ← EReal.coe_mul, ← EReal.coe_mul, ← EReal.coe_mul,
    ← EReal.coe_add, ← EReal.coe_add, ← EReal.coe_add, ← EReal.coe_add]
  refine congrArg _ ?_
  rw [zero_add, Finset.sum_mul, Finset.sum_mul, Finset.sum_mul,
    ← Finset.sum_add_distrib, ← Finset.sum_add_distrib, ← Finset.sum_add_distrib]
  exact Finset.sum_congr rfl fun i _ => by ring

end Cert.GateMix

end
-- ==== Proof.Bridge.lean ====
/-
  The two spellings of the layer's output agree on real inputs.

  If every entry of X, wA, wB and wT is a real number then so is every entry of the three softmaxes (SoftmaxRow.lean,
  SoftmaxCol.lean), hence every entry a = (pA · X) r n and b = (pB · X) r n of the two matrix products; and for real
  a, b and a real column of pT the kernel's  c0 + c1·a + c2·b + c3·(a·b)  is the reference's  ∑ i, gate i a b * pT i r
  (GateLaw.lean: each gate is affine in 1, a, b, a·b, and over the reals a finite sum distributes).
-/
import proofs.«167358_j41910290874770_1_alg».proof.Proof.Spec
import proofs.«167358_j41910290874770_1_alg».proof.Proof.SoftmaxRow
import proofs.«167358_j41910290874770_1_alg».proof.Proof.SoftmaxCol
import proofs.«167358_j41910290874770_1_alg».proof.Proof.GateLaw
import Idealize.ShloMosaic.Lib.ValueIdx

noncomputable section

namespace Cert.GateMix

open Idealize.ShloMosaic Idealize.ShloMosaic.ValueIdx

/-- On real inputs the kernel's spelling of the output is the reference's. -/
theorem Gk_eq_G (X : FVec Ideal SX .f32) (wA wB : FVec Ideal SW .f32) (wT : FVec Ideal ST .f32)
    (hX : AllReal X) (hA : AllReal wA) (hB : AllReal wB) (hT : AllReal wT) :
    Gk X wA wB wT = G X wA wB wT := by
  funext j
  obtain ⟨r, n, rfl⟩ : ∃ (r : Fin 1024) (n : Fin 16384), j = ix2 r n := ⟨j 0, j 1, eq_ix2 j⟩
  rw [Gk_apply, G_apply]
  obtain ⟨a, ha⟩ := mm_real (rowSoftmax wA) X (rowSoftmax_real wA hA) hX r n
  obtain ⟨b, hb⟩ := mm_real (rowSoftmax wB) X (rowSoftmax_real wB hB) hX r n
  rw [ha, hb]
  exact kerMix_eq_refMix (colSoftmax wT) (colSoftmax_real wT hT) r a b

end Cert.GateMix

end
-- ==== Proof.Finite.lean ====
/-
  Finiteness of the inputs, read back from the precondition.

  The precondition computes, for each of the four float inputs x, the bit  all (|x| < +∞)  — the absolute value
  max x (-x) compared elementwise, strictly, with the word 0x7F800000 (which denotes +∞), the bits reduced by "and"
  over every entry — and joins the four bits by "and".  If the joined bit is 1 then each of the four is 1, so every
  comparison is 1, so every entry e has max e (-e) < ⊤ in the extended reals; such an e is neither ⊥ nor ⊤, hence a
  real number.
-/
import proofs.«167358_j41910290874770_1_alg».proof.Proof.Spec
import proofs.«167358_j41910290874770_1_alg».proof.Proof.Gen.Pre_finite_inputs
import Idealize.ShloMosaic.Lib.ReduceAll
import Idealize.ShloMosaic.Lib.ValueIdx

namespace Cert.GateMix

open Idealize.ShloMosaic Idealize.ShloMosaic.ValueIdx

/-- The rank-0 shape has exactly one index (the empty tuple). -/
instance : Subsingleton Cert.Pre_finite_inputs.S_.Idx := ⟨fun a b => funext fun d => d.elim0⟩

/-- The f32 word 0x7F800000 (sign 0, exponent all ones, fraction 0) denotes +∞. -/
theorem ofBits_inf : Ideal.ofBits .f32 0x7F800000#32 = (⊤ : EReal) := by
  simp [Ideal.ofBits, Ideal.ieee]

/-- An extended real whose absolute value max x (-x) is strictly below +∞ is a real number:
    for x = ⊥ the absolute value is -⊥ = ⊤, for x = ⊤ it is ⊤, and ⊤ < ⊤ is false. -/
theorem real_of_abs_lt_top (x : EReal) (h : max x (-x) < ⊤) : ∃ v : ℝ, x = (v : EReal) := by
  induction x using EReal.rec with
  | bot => simp at h
  | coe r => exact ⟨r, rfl⟩
  | top => simp at h

/-- One entry of the comparison  |x| < +∞ : if the bit at index i is 1 then x i is a real number.
    The broadcast of the rank-0 constant reads +∞ at every index, the comparison at i is the bit of
    max (x i) (-(x i)) < +∞, and a false inequality would give the bit 0. -/
theorem real_of_cmp {s : Shape} (x : FVec Ideal s .f32)
    (hb : Cert.Pre_finite_inputs.S_.BroadcastsInDim s (![] : Fin 0 → Fin s.rank)) (i : s.Idx)
    (h : cmpf .olt (Host.absf x) (broadcastInDim s ![] hb (constant Cert.Pre_finite_inputs.S_ .f32 0x7F800000#32)) i = 1#1) :
    ∃ v : ℝ, x i = (v : EReal) := by
  refine real_of_abs_lt_top (x i) ?_
  have h' : BitVec.ofBool (decide (max (x i) (-(x i)) < Ideal.ofBits .f32 0x7F800000#32)) = 1#1 := h
  rw [ofBits_inf] at h'
  by_contra hn
  rw [decide_eq_false hn] at h'
  exact absurd h' (by decide)

/-- The precondition holds (its one-bit result is 1) only if every entry of every input is a real number:
    a conjunction of bits that is 1 has every conjunct 1, a reduction by "and" over all entries that is 1 met
    only 1s, and an entry whose comparison |x| < +∞ is 1 is real. -/
theorem allReal_of_pre (x0 : FVec Ideal SX .f32) (x1 x2 : FVec Ideal SW .f32) (x3 : FVec Ideal ST .f32)
    (h : Cert.Pre_finite_inputs.fn (F := Ideal) x0 x1 x2 x3 = fun _ => 1#1) :
    AllReal x0 ∧ AllReal x1 ∧ AllReal x2 ∧ AllReal x3 := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_cmp x0 _ i (Host.reduce_andi_all _ _ _ _ _ h0' i),
    fun i => real_of_cmp x1 _ i (Host.reduce_andi_all _ _ _ _ _ h1 i),
    fun i => real_of_cmp x2 _ i (Host.reduce_andi_all _ _ _ _ _ h2 i),
    fun i => real_of_cmp x3 _ i (Host.reduce_andi_all _ _ _ _ _ h3 i)⟩

end Cert.GateMix
-- ==== Proof.lean ====
/-
  The soft logic-gate layer: a Pallas kernel against its jnp reference, over the extended reals.

  Both programs take X : [1024, 16384] and unnormalised weights wA, wB : [1024, 1024], wT : [16, 1024], form the
  softmaxes pA, pB (along rows) and pT (along columns), and the matrix products A = pA · X, B = pB · X.  The
  reference stacks the sixteen soft gates of (A, B) and sums them weighted by pT; the kernel uses that every gate is
  affine in 1, A, B, A·B, computes on the host the four coefficient columns C = pTᵀ · T (T the 16 × 4 table of the
  gates' coefficients), and in a pallas_call over 8 × 4 tiles writes  C0 + C1·A + C2·B + C3·(A·B).

  The frames: the word-level and the idealized kernel run, fault-free, with their arguments unchanged, by the
  generated frame certificates; the reference by its run read back (the generated run, repaired: RefRun.lean).
  The idealization rewrote no operation, so nothing is to be preserved beyond the program's own text.
  The value: the kernel's result array is Gk of the arguments, tile by tile (KernelValue.lean: each tile's block is the
  payload of KernelPayload.lean at the arrays' rows and columns, the host-computed arrays read by KernelHost.lean, and
  the 32 tiles cover the array); the reference's is G (RefValue.lean, over the reference's operations read one at a
  time); and Gk = G on inputs that are all real (Bridge.lean: the softmaxes of reals are real, SoftmaxRow.lean and
  SoftmaxCol.lean, hence so are A and B, and on reals the two spellings are one polynomial identity, GateLaw.lean),
  which the precondition provides (Finite.lean).  Distributing a product over a sum fails at infinities, so the
  precondition is used, not merely assumed.
-/
import proofs.«167358_j41910290874770_1_alg».proof.Defs
import proofs.«167358_j41910290874770_1_alg».proof.Proof.Gen.Kernel
import proofs.«167358_j41910290874770_1_alg».proof.Proof.Gen.Kernel.Skeleton
import proofs.«167358_j41910290874770_1_alg».proof.Proof.Gen.Kernel.Launch
import proofs.«167358_j41910290874770_1_alg».proof.Proof.Gen.Kernel.Points
import proofs.«167358_j41910290874770_1_alg».proof.Proof.Gen.Kernel.Frame
import proofs.«167358_j41910290874770_1_alg».proof.Proof.Gen.KernelIdeal
import proofs.«167358_j41910290874770_1_alg».proof.Proof.Gen.KernelIdeal.Skeleton
import proofs.«167358_j41910290874770_1_alg».proof.Proof.Gen.KernelIdeal.Launch
import proofs.«167358_j41910290874770_1_alg».proof.Proof.Gen.KernelIdeal.Points
import proofs.«167358_j41910290874770_1_alg».proof.Proof.Gen.KernelIdeal.Frame
import proofs.«167358_j41910290874770_1_alg».proof.Proof.Gen.ReferenceIdeal
import proofs.«167358_j41910290874770_1_alg».proof.Proof.Gen.Pre_finite_inputs
import proofs.«167358_j41910290874770_1_alg».proof.Proof.Gen.KernelIdeal.Value
import proofs.«167358_j41910290874770_1_alg».proof.Proof.RefRun
import proofs.«167358_j41910290874770_1_alg».proof.Proof.RefRead
import proofs.«167358_j41910290874770_1_alg».proof.Proof.KernelValue
import proofs.«167358_j41910290874770_1_alg».proof.Proof.RefValue
import proofs.«167358_j41910290874770_1_alg».proof.Proof.Bridge
import proofs.«167358_j41910290874770_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run read back, the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Both idealized programs end with the same result array: the kernel's is Gk of the arguments, the reference's is G,
    and the two agree because the precondition makes every input, hence every softmax and both matrix products, real. -/
theorem algebraic : Cert.algebraic_KernelIdeal_ReferenceIdeal := by
  intro m ρ m' ρ' hpre hagree
  refine ⟨fun c => Cert.KernelIdeal.ArrayValue.GkOf m c, Cert.KernelIdeal.ArrayValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v82_eq, Cert.ReferenceIdeal.RefValue.ref_eq_G,
    (hagree c).1, (hagree c).2.1, (hagree c).2.2.1, (hagree c).2.2.2]
  obtain ⟨h0, h1, h2, h3⟩ := Cert.GateMix.allReal_of_pre _ _ _ _ (hpre c)
  exact (Cert.GateMix.Gk_eq_G _ _ _ _ h0 h1 h2 h3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
